-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v69_0)) (v2 : (c : Dev Cert.KernelIdeal.nD) → Buf (Elt Ideal) ((c.tc : Thread Cert.KernelIdeal.nD Cert.KernelIdeal.τ).loc Cert.KernelIdeal.main_v69_1)) (v3 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v69_0) = v1 c
          ∧ r.2.mem ((c.tc : Thread Cert.KernelIdeal.nD Cert.KernelIdeal.τ).loc Cert.KernelIdeal.main_v69_1) = v2 c
          ∧ r.2.mem ((c.tc : Thread Cert.KernelIdeal.nD Cert.KernelIdeal.τ).loc Cert.KernelIdeal.main_v71) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_v104) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16384x40 : Shape := ⟨2, ![16384, 40]⟩
abbrev S2048x256 : Shape := ⟨2, ![2048, 256]⟩
abbrev S256 : Shape := ⟨1, ![256]⟩
abbrev S40x256 : Shape := ⟨2, ![40, 256]⟩
abbrev S256x256 : Shape := ⟨2, ![256, 256]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16384x40 : S_.BroadcastsInDim S16384x40 (![] : Fin 0 → Fin S16384x40.rank)
  reducesTo_S16384x40_S_d0_1 : S16384x40.ReducesTo [0, 1] S_
  bcast_S_S2048x256 : S_.BroadcastsInDim S2048x256 (![] : Fin 0 → Fin S2048x256.rank)
  reducesTo_S2048x256_S_d0_1 : S2048x256.ReducesTo [0, 1] S_
  bcast_S_S256 : S_.BroadcastsInDim S256 (![] : Fin 0 → Fin S256.rank)
  reducesTo_S256_S_d0 : S256.ReducesTo [0] S_
  bcast_S_S40x256 : S_.BroadcastsInDim S40x256 (![] : Fin 0 → Fin S40x256.rank)
  reducesTo_S40x256_S_d0_1 : S40x256.ReducesTo [0, 1] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg7 : FVec F S256 .f32) (main_arg8 : FVec F S256 .f32) (main_arg9 : FVec F S256x256 .f32) (main_arg10 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg4 : FVec F S256 .f32) (main_arg5 : FVec F S40x256 .f32) (main_arg6 : FVec F S256 .f32) (main_arg7 : FVec F S256 .f32) (main_arg8 : FVec F S256 .f32) (main_arg9 : FVec F S256x256 .f32) (main_arg10 : FVec F S256 .f32) (main_v13 : IVec S_ 1) (main_v16 : IVec S2048x256 1) : IVec S_ 1 :=
  let main_c_5 : IVec S_ 1 := constantI S_ 1 1#1
  let main_v17 : IVec S_ 1 := (fun x v => Host.reduce IntOp.andi x v reducesTo_S2048x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S40x256 .f32 := Host.absf main_arg5
  let main_cst_8 : FVec F S_ .f32 := constant S_ .f32 0x7F800000#32
  let main_v25 : FVec F S40x256 .f32 := broadcastInDim S40x256 ![] bcast_S_S40x256 main_cst_8
  let main_v26 : IVec S40x256 1 := cmpf .olt main_v24 main_v25
  let main_c_9 : IVec S_ 1 := constantI S_ 1 1#1
  let main_v27 : IVec S_ 1 := (fun x v => Host.reduce IntOp.andi x v reducesTo_S40x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x2048 .f32) (main_arg1 : FVec F S16384x40 .f32) (main_arg2 : FVec F S16384x40 .f32) (main_arg3 : FVec F S2048x256 .f32) (main_arg4 : FVec F S256 .f32) (main_arg5 : FVec F S40x256 .f32) (main_arg6 : FVec F S256 .f32) (main_arg7 : FVec F S256 .f32) (main_arg8 : FVec F S256 .f32) (main_arg9 : FVec F S256x256 .f32) (main_arg10 : FVec F S256 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x40 .f32 := Host.absf main_arg1
  let main_cst_0 : FVec F S_ .f32 := constant S_ .f32 0x7F800000#32
  let main_v5 : FVec F S16384x40 .f32 := broadcastInDim S16384x40 ![] bcast_S_S16384x40 main_cst_0
  let main_v6 : IVec S16384x40 1 := cmpf .olt main_v4 main_v5
  let main_c_1 : IVec S_ 1 := constantI S_ 1 1#1
  let main_v7 : IVec S_ 1 := (fun x v => Host.reduce IntOp.andi x v reducesTo_S16384x40_S_d0_1 h_S_) main_v6 main_c_1
  let main_v8 : IVec S_ 1 := andi main_v3 main_v7
  let main_v9 : FVec F S16384x40 .f32 := Host.absf main_arg2
  let main_cst_2 : FVec F S_ .f32 := constant S_ .f32 0x7F800000#32
  let main_v10 : FVec F S16384x40 .f32 := broadcastInDim S16384x40 ![] bcast_S_S16384x40 main_cst_2
  let main_v11 : IVec S16384x40 1 := cmpf .olt main_v9 main_v10
  let main_c_3 : IVec S_ 1 := constantI S_ 1 1#1
  let main_v12 : IVec S_ 1 := (fun x v => Host.reduce IntOp.andi x v reducesTo_S16384x40_S_d0_1 h_S_) main_v11 main_c_3
  let main_v13 : IVec S_ 1 := andi main_v8 main_v12
  let main_v14 : FVec F S2048x256 .f32 := Host.absf main_arg3
  let main_cst_4 : FVec F S_ .f32 := constant S_ .f32 0x7F800000#32
  let main_v15 : FVec F S2048x256 .f32 := broadcastInDim S2048x256 ![] bcast_S_S2048x256 main_cst_4
  let main_v16 : IVec S2048x256 1 := cmpf .olt main_v14 main_v15
  fn_part1 (F := F) main_arg4 main_arg5 main_arg6 main_arg7 main_arg8 main_arg9 main_arg10 main_v13 main_v16
-- ==== Kernel.lean ====
abbrev S16384x2048 : Shape := ⟨2, ![16384, 2048]⟩
abbrev S16384x40 : Shape := ⟨2, ![16384, 40]⟩
abbrev S2048x256 : Shape := ⟨2, ![2048, 256]⟩
abbrev S256 : Shape := ⟨1, ![256]⟩
abbrev S40x256 : Shape := ⟨2, ![40, 256]⟩
abbrev S256x256 : Shape := ⟨2, ![256, 256]⟩
abbrev S16384x256 : Shape := ⟨2, ![16384, 256]⟩
abbrev S1024x2048 : Shape := ⟨2, ![1024, 2048]⟩
abbrev S1024x256 : Shape := ⟨2, ![1024, 256]⟩
abbrev S1x256 : Shape := ⟨2, ![1, 256]⟩
abbrev S1024 : Shape := ⟨1, ![1024]⟩
abbrev S1024x1 : Shape := ⟨2, ![1024, 1]⟩
abbrev S_ : Shape := ⟨0, ![]⟩
abbrev S16384x1 : Shape := ⟨2, ![16384, 1]⟩
abbrev S2048x1 : Shape := ⟨2, ![2048, 1]⟩
abbrev S2048 : Shape := ⟨1, ![2048]⟩
abbrev S1 : Shape := ⟨1, ![1]⟩

abbrev nBuf : Space → Nat
  | .hbm => 100
  | .vmem => 18
  | .smem => 0
  | _ => 0

abbrev bufTy : (tb : Table) → Fin (tcTables nBuf tb) → BufTy
  | .hbm, ⟨0, _⟩ => ⟨S16384x2048, .f32⟩
  | .hbm, ⟨1, _⟩ => ⟨S16384x40, .f32⟩
  | .hbm, ⟨2, _⟩ => ⟨S16384x40, .f32⟩
  | .hbm, ⟨3, _⟩ => ⟨S2048x256, .f32⟩
  | .hbm, ⟨4, _⟩ => ⟨S256, .f32⟩
  | .hbm, ⟨5, _⟩ => ⟨S40x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S16384x256, .f32⟩
  | .hbm, ⟨12, _⟩ => ⟨S16384x256, .f32⟩
  | .hbm, ⟨13, _⟩ => ⟨S1x256, .f32⟩
  | .hbm, ⟨14, _⟩ => ⟨S16384x256, .f32⟩
  | .hbm, ⟨15, _⟩ => ⟨S16384x256, .f32⟩
  | .hbm, ⟨16, _⟩ => ⟨S_, .f32⟩
  | .hbm, ⟨17, _⟩ => ⟨S256, .f32⟩
  | .hbm, ⟨18, _⟩ => ⟨S_, .f32⟩
  | .hbm, ⟨19, _⟩ => ⟨S256, .f32⟩
  | .hbm, ⟨20, _⟩ => ⟨S256, .f32⟩
  | .hbm, ⟨21, _⟩ => ⟨S1x256, .f32⟩
  | .hbm, ⟨22, _⟩ => ⟨S16384x256, .f32⟩
  | .hbm, ⟨23, _⟩ => ⟨S16384x256, .f32⟩
  | .hbm, ⟨24, _⟩ => ⟨S16384x256, .f32⟩
  | .hbm, ⟨25, _⟩ => ⟨S_, .f32⟩
  | .hbm, ⟨26, _⟩ => ⟨S256, .f32⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S1x256, .f32⟩
  | .hbm, ⟨31, _⟩ => ⟨S16384x256, .f32⟩
  | .hbm, ⟨32, _⟩ => ⟨S16384x256, .f32⟩
  | .hbm, ⟨33, _⟩ => ⟨S_, .f32⟩
  | .hbm, ⟨34, _⟩ => ⟨S256, .f32⟩
  | .hbm, ⟨35, _⟩ => ⟨S256, .f32⟩
  | .hbm, ⟨36, _⟩ => ⟨S256, .f32⟩
  | .hbm, ⟨37, _⟩ => ⟨S1x256, .f32⟩
  | .hbm, ⟨38, _⟩ => ⟨S16384x256, .f32⟩
  | .hbm, ⟨39, _⟩ => ⟨S16384x256, .f32⟩
  | .hbm, ⟨40, _⟩ => ⟨S1x256, .f32⟩
  | .hbm, ⟨41, _⟩ => ⟨S16384x256, .f32⟩
  | .hbm, ⟨42, _⟩ => ⟨S16384x256, .f32⟩
  | .hbm, ⟨43, _⟩ => ⟨S1x256, .f32⟩
  | .hbm, ⟨44, _⟩ => ⟨S16384x256, .f32⟩
  | .hbm, ⟨45, _⟩ => ⟨S16384x256, .f32⟩
  | .hbm, ⟨46, _⟩ => ⟨S_, .f32⟩
  | .hbm, ⟨47, _⟩ => ⟨S16384x256, .f32⟩
  | .hbm, ⟨48, _⟩ => ⟨S16384x256, .f32⟩
  | .hbm, ⟨49, _⟩ => ⟨S16384x256, .f32⟩
  | .hbm, ⟨50, _⟩ => ⟨S1x256, .f32⟩
  | .hbm, ⟨51, _⟩ => ⟨S16384x256, .f32⟩
  | .hbm, ⟨52, _⟩ => ⟨S16384x256, .f32⟩
  | .hbm, ⟨53, _⟩ => ⟨S16384x256, .f32⟩
  | .hbm, ⟨54, _⟩ => ⟨S1x256, .f32⟩
  | .hbm, ⟨55, _⟩ => ⟨S16384x256, .f32⟩
  | .hbm, ⟨56, _⟩ => ⟨S16384x256, .f32⟩
  | .hbm, ⟨57, _⟩ => ⟨S_, .f32⟩
  | .hbm, ⟨58, _⟩ => ⟨S256, .f32⟩
  | .hbm, ⟨59, _⟩ => ⟨S_, .f32⟩
  | .hbm, ⟨60, _⟩ => ⟨S256, .f32⟩
  | .hbm, ⟨61, _⟩ => ⟨S256, .f32⟩
  | .hbm, ⟨62, _⟩ => ⟨S1x256, .f32⟩
  | .hbm, ⟨63, _⟩ => ⟨S16384x256, .f32⟩
  | .hbm, ⟨64, _⟩ => ⟨S16384x256, .f32⟩
  | .hbm, ⟨65, _⟩ => ⟨S16384x256, .f32⟩
  | .hbm, ⟨66, _⟩ => ⟨S_, .f32⟩
  | .hbm, ⟨67, _⟩ => ⟨S256, .f32⟩
  | .hbm, ⟨68, _⟩ => ⟨S_, .f32⟩
  | .hbm, ⟨69, _⟩ => ⟨S256, .f32⟩
  | .hbm, ⟨70, _⟩ => ⟨S256, .f32⟩
  | .hbm, ⟨71, _⟩ => ⟨S1x256, .f32⟩
  | .hbm, ⟨72, _⟩ => ⟨S16384x256, .f32⟩
  | .hbm, ⟨73, _⟩ => ⟨S16384x256, .f32⟩
  | .hbm, ⟨74, _⟩ => ⟨S_, .f32⟩
  | .hbm, ⟨75, _⟩ => ⟨S256, .f32⟩
  | .hbm, ⟨76, _⟩ => ⟨S256, .f32⟩
  | .hbm, ⟨77, _⟩ => ⟨S256, .f32⟩
  | .hbm, ⟨78, _⟩ => ⟨S1x256, .f32⟩
  | .hbm, ⟨79, _⟩ => ⟨S16384x256, .f32⟩
  | .hbm, ⟨80, _⟩ => ⟨S16384x256, .f32⟩
  | .hbm, ⟨81, _⟩ => ⟨S1x256, .f32⟩
  | .hbm, ⟨82, _⟩ => ⟨S16384x256, .f32⟩
  | .hbm, ⟨83, _⟩ => ⟨S16384x256, .f32⟩
  | .hbm, ⟨84, _⟩ => ⟨S1x256, .f32⟩
  | .hbm, ⟨85, _⟩ => ⟨S16384x256, .f32⟩
  | .hbm, ⟨86, _⟩ => ⟨S16384x256, .f32⟩
  | .hbm, ⟨87, _⟩ => ⟨S_, .f32⟩
  | .hbm, ⟨88, _⟩ => ⟨S16384x256, .f32⟩
  | .hbm, ⟨89, _⟩ => ⟨S16384x256, .f32⟩
  | .hbm, ⟨90, _⟩ => ⟨S16384x256, .f32⟩
  | .hbm, ⟨91, _⟩ => ⟨S1x256, .f32⟩
  | .hbm, ⟨92, _⟩ => ⟨S16384x256, .f32⟩
  | .hbm, ⟨93, _⟩ => ⟨S16384x256, .f32⟩
  | .hbm, ⟨94, _⟩ => ⟨S16384x256, .f32⟩
  | .hbm, ⟨95, _⟩ => ⟨S16384x256, .f32⟩
  | .hbm, ⟨96, _⟩ => ⟨S16384x1, .i32⟩
  | .hbm, ⟨97, _⟩ => ⟨S_, .i32⟩
  | .hbm, ⟨98, _⟩ => ⟨S_, .i32⟩
  | .hbm, ⟨99, _⟩ => ⟨S1, .i32⟩
  | .local _ .vmem, ⟨0, _⟩ => ⟨S1024x2048, .f32⟩
  | .local _ .vmem, ⟨1, _⟩ => ⟨S1024x2048, .f32⟩
  | .local _ .vmem, ⟨2, _⟩ => ⟨S2048x256, .f32⟩
  | .local _ .vmem, ⟨3, _⟩ => ⟨S256, .f32⟩
  | .local _ .vmem, ⟨4, _⟩ => ⟨S1024x256, .f32⟩
  | .local _ .vmem, ⟨5, _⟩ => ⟨S1024x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S2048x1, .i32⟩
  | .local _ .vmem, ⟨17, _⟩ => ⟨S2048x1, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_cst : Ref sig .tc := ⟨.hbm, 46, rfl⟩
abbrev main_call0_v0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_6 : Ref sig .tc := ⟨.hbm, 66, rfl⟩
abbrev main_v46 : Ref sig .tc := ⟨.hbm, 67, rfl⟩
abbrev main_cst_7 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_8 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_call1_cst : Ref sig .tc := ⟨.hbm, 87, rfl⟩
abbrev main_call1_v0 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69_0 : Ref sig .tc := ⟨.hbm, 94, rfl⟩
abbrev main_v69_1 : Ref sig .tc := ⟨.hbm, 95, rfl⟩
abbrev main_v69_2 : Ref sig .tc := ⟨.hbm, 96, rfl⟩
abbrev main_c : Ref sig .tc := ⟨.hbm, 97, rfl⟩
abbrev main_v70 : Ref sig .tc := ⟨.hbm, 98, rfl⟩
abbrev main_v71 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x1 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  reduces_S1024x256_S1024 : S1024x256.Reduces [1] S1024
  shapeCasts_S1024_S1024x1 : S1024.ShapeCasts S1024x1
  broadcasts_S1024x1_S1024x256 : S1024x1.Broadcasts S1024x256
  inb_S1024x256_S1024x256_0_0 : ∀ a, (![0, 0] : Fin 2 → Nat) a + S1024x256.size a ≤ S1024x256.size a
  h_S1024x256 : 0 < S1024x256.numel
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  reducesTo_S16384x256_S256_d0 : S16384x256.ReducesTo [0] S256
  h_S_ : 0 < S_.numel
  bcast_S_S256 : S_.BroadcastsInDim S256 (![] : Fin 0 → Fin S256.rank)
  bcast_S_S16384x256 : S_.BroadcastsInDim S16384x256 (![] : Fin 0 → Fin S16384x256.rank)
  shapeCasts_S2048x256_S2048x256 : S2048x256.ShapeCasts S2048x256
  reduces_S2048x256_S2048 : S2048x256.Reduces [1] S2048
  shapeCasts_S2048_S2048x1 : S2048.ShapeCasts S2048x1
  broadcasts_S2048x1_S2048x256 : S2048x1.Broadcasts S2048x256
  natLt_1_32 : 1 < 32
  inb_S2048x1_S2048x1_0_0 : ∀ a, (![0, 0] : Fin 2 → Nat) a + S2048x1.size a ≤ S2048x1.size a
  h_S2048x1 : 0 < S2048x1.numel
  reducesTo_S16384x1_S_d0_1 : S16384x1.ReducesTo [0, 1] S_
  shapeCasts_S_S1 : S_.ShapeCasts S1
  dot_S1024x2048_S2048x256_S1024x256_1_0_0_1_n_n_wf : DotDims.WF S1024x2048 S2048x256 S1024x256 [1] [0] [0] [1] [] []
  dot_S16384x40_S40x256_S16384x256_1_0_0_1_n_n_wf : DotDims.WF S16384x40 S40x256 S16384x256 [1] [0] [0] [1] [] []
  dot_S16384x256_S256x256_S16384x256_1_0_0_1_n_n_wf : DotDims.WF S16384x256 S256x256 S16384x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x256.size a
  hwx0_1 : ∀ i : grid0.Coords, EltTy.bits .f32 = 32 ∨ (Rect.block (s := S2048x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S16384x256.size a
  hwx0_3 : ∀ i : grid0.Coords, EltTy.bits .f32 = 32 ∨ (Rect.block (s := S16384x256) S1024x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S16384x256.size a
  hwx1_0 : ∀ i : grid1.Coords, EltTy.bits .f32 = 32 ∨ (Rect.block (s := S16384x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S16384x256.size a
  hwx1_1 : ∀ i : grid1.Coords, EltTy.bits .f32 = 32 ∨ (Rect.block (s := S16384x256) S2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S16384x256.size a
  hwx1_2 : ∀ i : grid1.Coords, EltTy.bits .f32 = 32 ∨ (Rect.block (s := S16384x256) S2048x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S16384x256.size a
  hwx1_3 : ∀ i : grid1.Coords, EltTy.bits .f32 = 32 ∨ (Rect.block (s := S16384x256) S2048x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x256.size a ≤ S16384x256.size a
  hwx1_4 : ∀ i : grid1.Coords, EltTy.bits .f32 = 32 ∨ (Rect.block (s := S16384x256) S2048x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x1.size a ≤ S16384x1.size a
  hwx1_5 : ∀ i : grid1.Coords, EltTy.bits .i32 = 32 ∨ (Rect.block (s := S16384x1) S2048x1.size (cc1_transform_5 i) (hinb1_5 i)).WholeWords (EltTy.packing .i32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S16384x40_S40x256_S16384x256_1_0_0_1_n_n : DotDims S16384x40 S40x256 S16384x256 where
  lhsContracting := [1]
  rhsContracting := [0]
  lhsNonContracting := [0]
  rhsNonContracting := [1]
  lhsBatch := []
  rhsBatch := []
  wf := dot_S16384x40_S40x256_S16384x256_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2048x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v68) S2048x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v69_0) S2048x256.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v69_1) S2048x256.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v69_2) S2048x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16384x2048 : Shape := ⟨2, ![16384, 2048]⟩
abbrev S16384x40 : Shape := ⟨2, ![16384, 40]⟩
abbrev S2048x256 : Shape := ⟨2, ![2048, 256]⟩
abbrev S256 : Shape := ⟨1, ![256]⟩
abbrev S40x256 : Shape := ⟨2, ![40, 256]⟩
abbrev S256x256 : Shape := ⟨2, ![256, 256]⟩
abbrev S16384x256 : Shape := ⟨2, ![16384, 256]⟩
abbrev S1x256 : Shape := ⟨2, ![1, 256]⟩
abbrev S_ : Shape := ⟨0, ![]⟩
abbrev S16384 : Shape := ⟨1, ![16384]⟩
abbrev S16384x1 : Shape := ⟨2, ![16384, 1]⟩
abbrev S1 : Shape := ⟨1, ![1]⟩

abbrev nBuf : Space → Nat
  | .hbm => 152
  | .vmem => 0
  | .smem => 0
  | _ => 0

abbrev hbmTy0_0 (i : Nat) : BufTy := match i % 128 with
  | 0 => ⟨S16384x2048, .f32⟩
  | 1 => ⟨S16384x40, .f32⟩
  | 2 => ⟨S16384x40, .f32⟩
  | 3 => ⟨S2048x256, .f32⟩
  | 4 => ⟨S256, .f32⟩
  | 5 => ⟨S40x256, .f32⟩
  | 6 => ⟨S256, .f32⟩
  | 7 => ⟨S256, .f32⟩
  | 8 => ⟨S256, .f32⟩
  | 9 => ⟨S256x256, .f32⟩
  | 10 => ⟨S256, .f32⟩
  | 11 => ⟨S16384x256, .f32⟩
  | 12 => ⟨S1x256, .f32⟩
  | 13 => ⟨S16384x256, .f32⟩
  | 14 => ⟨S16384x256, .f32⟩
  | 15 => ⟨S16384x256, .f32⟩
  | 16 => ⟨S1x256, .f32⟩
  | 17 => ⟨S16384x256, .f32⟩
  | 18 => ⟨S16384x256, .f32⟩
  | 19 => ⟨S_, .f32⟩
  | 20 => ⟨S256, .f32⟩
  | 21 => ⟨S_, .f32⟩
  | 22 => ⟨S256, .f32⟩
  | 23 => ⟨S256, .f32⟩
  | 24 => ⟨S1x256, .f32⟩
  | 25 => ⟨S16384x256, .f32⟩
  | 26 => ⟨S16384x256, .f32⟩
  | 27 => ⟨S16384x256, .f32⟩
  | 28 => ⟨S_, .f32⟩
  | 29 => ⟨S256, .f32⟩
  | 30 => ⟨S_, .f32⟩
  | 31 => ⟨S256, .f32⟩
  | 32 => ⟨S256, .f32⟩
  | 33 => ⟨S1x256, .f32⟩
  | 34 => ⟨S16384x256, .f32⟩
  | 35 => ⟨S16384x256, .f32⟩
  | 36 => ⟨S_, .f32⟩
  | 37 => ⟨S256, .f32⟩
  | 38 => ⟨S256, .f32⟩
  | 39 => ⟨S256, .f32⟩
  | 40 => ⟨S1x256, .f32⟩
  | 41 => ⟨S16384x256, .f32⟩
  | 42 => ⟨S16384x256, .f32⟩
  | 43 => ⟨S1x256, .f32⟩
  | 44 => ⟨S16384x256, .f32⟩
  | 45 => ⟨S16384x256, .f32⟩
  | 46 => ⟨S1x256, .f32⟩
  | 47 => ⟨S16384x256, .f32⟩
  | 48 => ⟨S16384x256, .f32⟩
  | 49 => ⟨S_, .f32⟩
  | 50 => ⟨S16384x256, .f32⟩
  | 51 => ⟨S16384x256, .f32⟩
  | 52 => ⟨S16384x256, .f32⟩
  | 53 => ⟨S1x256, .f32⟩
  | 54 => ⟨S16384x256, .f32⟩
  | 55 => ⟨S16384x256, .f32⟩
  | 56 => ⟨S16384x256, .f32⟩
  | 57 => ⟨S1x256, .f32⟩
  | 58 => ⟨S16384x256, .f32⟩
  | 59 => ⟨S16384x256, .f32⟩
  | 60 => ⟨S_, .f32⟩
  | 61 => ⟨S256, .f32⟩
  | 62 => ⟨S_, .f32⟩
  | 63 => ⟨S256, .f32⟩
  | 64 => ⟨S256, .f32⟩
  | 65 => ⟨S1x256, .f32⟩
  | 66 => ⟨S16384x256, .f32⟩
  | 67 => ⟨S16384x256, .f32⟩
  | 68 => ⟨S16384x256, .f32⟩
  | 69 => ⟨S_, .f32⟩
  | 70 => ⟨S256, .f32⟩
  | 71 => ⟨S_, .f32⟩
  | 72 => ⟨S256, .f32⟩
  | 73 => ⟨S256, .f32⟩
  | 74 => ⟨S1x256, .f32⟩
  | 75 => ⟨S16384x256, .f32⟩
  | 76 => ⟨S16384x256, .f32⟩
  | 77 => ⟨S_, .f32⟩
  | 78 => ⟨S256, .f32⟩
  | 79 => ⟨S256, .f32⟩
  | 80 => ⟨S256, .f32⟩
  | 81 => ⟨S1x256, .f32⟩
  | 82 => ⟨S16384x256, .f32⟩
  | 83 => ⟨S16384x256, .f32⟩
  | 84 => ⟨S1x256, .f32⟩
  | 85 => ⟨S16384x256, .f32⟩
  | 86 => ⟨S16384x256, .f32⟩
  | 87 => ⟨S1x256, .f32⟩
  | 88 => ⟨S16384x256, .f32⟩
  | 89 => ⟨S16384x256, .f32⟩
  | 90 => ⟨S_, .f32⟩
  | 91 => ⟨S16384x256, .f32⟩
  | 92 => ⟨S16384x256, .f32⟩
  | 93 => ⟨S16384x256, .f32⟩
  | 94 => ⟨S1x256, .f32⟩
  | 95 => ⟨S16384x256, .f32⟩
  | 96 => ⟨S16384x256, .f32⟩
  | 97 => ⟨S16384x256, .f32⟩
  | 98 => ⟨S_, .f32⟩
  | 99 => ⟨S16384, .f32⟩
  | 100 => ⟨S16384x1, .f32⟩
  | 101 => ⟨S16384x1, .f32⟩
  | 102 => ⟨S16384x256, .f32⟩
  | 103 => ⟨S16384x256, .f32⟩
  | 104 => ⟨S16384x256, .f32⟩
  | 105 => ⟨S_, .f32⟩
  | 106 => ⟨S16384, .f32⟩
  | 107 => ⟨S16384x1, .f32⟩
  | 108 => ⟨S16384x1, .f32⟩
  | 109 => ⟨S16384x256, .f32⟩
  | 110 => ⟨S16384x256, .f32⟩
  | 111 => ⟨S16384x256, .f32⟩
  | 112 => ⟨S_, .f32⟩
  | 113 => ⟨S16384, .f32⟩
  | 114 => ⟨S16384x1, .f32⟩
  | 115 => ⟨S16384x1, .f32⟩
  | 116 => ⟨S16384x256, .f32⟩
  | 117 => ⟨S16384x256, .f32⟩
  | 118 => ⟨S16384x256, .f32⟩
  | 119 => ⟨S_, .f32⟩
  | 120 => ⟨S16384x256, .f32⟩
  | 121 => ⟨S16384x256, .f32⟩
  | 122 => ⟨S16384x256, .f32⟩
  | 123 => ⟨S_, .f32⟩
  | 124 => ⟨S16384x256, .f32⟩
  | 125 => ⟨S16384x256, .f32⟩
  | 126 => ⟨S_, .f32⟩
  | 127 => ⟨S16384, .f32⟩
  | _ => ⟨S16384x2048, .f32⟩

abbrev hbmTy0_1 (i : Nat) : BufTy := match i % 128 with
  | 0 => ⟨S_, .f32⟩
  | 1 => ⟨S16384, .f32⟩
  | 2 => ⟨S16384, .f32⟩
  | 3 => ⟨S16384x256, .f32⟩
  | 4 => ⟨S_, .f32⟩
  | 5 => ⟨S16384x256, .f32⟩
  | 6 => ⟨S16384x256, .f32⟩
  | 7 => ⟨S16384x256, .f32⟩
  | 8 => ⟨S_, .f32⟩
  | 9 => ⟨S16384x256, .f32⟩
  | 10 => ⟨S16384x256, .f32⟩
  | 11 => ⟨S_, .f32⟩
  | 12 => ⟨S16384, .f32⟩
  | 13 => ⟨S_, .f32⟩
  | 14 => ⟨S16384, .f32⟩
  | 15 => ⟨S16384, .f32⟩
  | 16 => ⟨S16384, .f32⟩
  | 17 => ⟨S_, .f32⟩
  | 18 => ⟨S16384, .f32⟩
  | 19 => ⟨S16384, .i1⟩
  | 20 => ⟨S16384, .i32⟩
  | 21 => ⟨S_, .i32⟩
  | 22 => ⟨S_, .i32⟩
  | 23 => ⟨S1, .i32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call0_cst : Ref sig .tc := ⟨.hbm, 49, rfl⟩
abbrev main_call0_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_4 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_cst_7 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_8 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_call1_cst : Ref sig .tc := ⟨.hbm, 90, rfl⟩
abbrev main_call1_v0 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_call2_v0 : Ref sig .tc := ⟨.hbm, 97, rfl⟩
abbrev main_call2_cst : Ref sig .tc := ⟨.hbm, 98, rfl⟩
abbrev main_call2_v1 : Ref sig .tc := ⟨.hbm, 99, rfl⟩
abbrev main_call2_v2 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_call3_v0 : Ref sig .tc := ⟨.hbm, 104, rfl⟩
abbrev main_call3_cst : Ref sig .tc := ⟨.hbm, 105, rfl⟩
abbrev main_call3_v1 : Ref sig .tc := ⟨.hbm, 106, rfl⟩
abbrev main_call3_v2 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_call4_v0 : Ref sig .tc := ⟨.hbm, 111, rfl⟩
abbrev main_call4_cst : Ref sig .tc := ⟨.hbm, 112, rfl⟩
abbrev main_call4_v1 : Ref sig .tc := ⟨.hbm, 113, rfl⟩
abbrev main_call4_v2 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_9 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_10 : Ref sig .tc := ⟨.hbm, 123, rfl⟩
abbrev main_v85 : Ref sig .tc := ⟨.hbm, 124, rfl⟩
abbrev main_v86 : Ref sig .tc := ⟨.hbm, 125, rfl⟩
abbrev main_cst_11 : Ref sig .tc := ⟨.hbm, 126, rfl⟩
abbrev main_v87 : Ref sig .tc := ⟨.hbm, 127, rfl⟩
abbrev main_cst_12 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_13 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_14 : Ref sig .tc := ⟨.hbm, 136, rfl⟩
abbrev main_v94 : Ref sig .tc := ⟨.hbm, 137, rfl⟩
abbrev main_v95 : Ref sig .tc := ⟨.hbm, 138, rfl⟩
abbrev main_cst_15 : Ref sig .tc := ⟨.hbm, 139, rfl⟩
abbrev main_v96 : Ref sig .tc := ⟨.hbm, 140, rfl⟩
abbrev main_cst_16 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_17 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_c : Ref sig .tc := ⟨.hbm, 149, rfl⟩
abbrev main_v103 : Ref sig .tc := ⟨.hbm, 150, rfl⟩
abbrev main_v104 : Ref sig .tc := ⟨.hbm, 151, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  reducesTo_S16384x256_S256_d0 : S16384x256.ReducesTo [0] S256
  h_S_ : 0 < S_.numel
  bcast_S_S256 : S_.BroadcastsInDim S256 (![] : Fin 0 → Fin S256.rank)
  bcast_S_S16384x256 : S_.BroadcastsInDim S16384x256 (![] : Fin 0 → Fin S16384x256.rank)
  reducesTo_S16384x256_S16384_d1 : S16384x256.ReducesTo [1] S16384
  bcast_S16384_S16384x1_0 : S16384.BroadcastsInDim S16384x1 (![0] : Fin 1 → Fin S16384x1.rank)
  bcast_S16384x1_S16384x256_0_1 : S16384x1.BroadcastsInDim S16384x256 (![0, 1] : Fin 2 → Fin S16384x256.rank)
  bcast_S_S16384 : S_.BroadcastsInDim S16384 (![] : Fin 0 → Fin S16384.rank)
  natLt_1_32 : 1 < 32
  reducesTo_S16384_S_d0 : S16384.ReducesTo [0] S_
  shapeCasts_S_S1 : S_.ShapeCasts S1
  dot_S16384x2048_S2048x256_S16384x256_1_0_0_1_n_n_wf : DotDims.WF S16384x2048 S2048x256 S16384x256 [1] [0] [0] [1] [] []
  dot_S16384x40_S40x256_S16384x256_1_0_0_1_n_n_wf : DotDims.WF S16384x40 S40x256 S16384x256 [1] [0] [0] [1] [] []
  dot_S16384x256_S256x256_S16384x256_1_0_0_1_n_n_wf : DotDims.WF S16384x256 S256x256 S16384x256 [1] [0] [0] [1] [] []

variable [Facts₀]

def dot_S16384x2048_S2048x256_S16384x256_1_0_0_1_n_n : DotDims S16384x2048 S2048x256 S16384x256 where
  lhsContracting := [1]
  rhsContracting := [0]
  lhsNonContracting := [0]
  rhsNonContracting := [1]
  lhsBatch := []
  rhsBatch := []
  wf := dot_S16384x2048_S2048x256_S16384x256_1_0_0_1_n_n_wf
def dot_S16384x40_S40x256_S16384x256_1_0_0_1_n_n : DotDims S16384x40 S40x256 S16384x256 where
  lhsContracting := [1]
  rhsContracting := [0]
  lhsNonContracting := [0]
  rhsNonContracting := [1]
  lhsBatch := []
  rhsBatch := []
  wf := dot_S16384x40_S40x256_S16384x256_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf

class Facts : Prop extends Facts₀ where

variable [Facts]
-- ==== Proof.RowMath.lean ====
/-
  Extended-real facts behind the triplet distances, and the row functions both programs compute.

  A row of a [n, 256] array is normalised by dividing each entry by the square root of the row's sum of squares; the distance
  of two rows is the square root of the sum over the row of (a - b + ε)². The reference spells the square as
  |d| ^ 2 and the root as s ^ (1/2): on the extended reals |d|^2 = d·d for every d (the infinities included), and
  s ^ (1/2) = √s for every s ≥ 0 (⊤ included), which a sum of squares always is.
-/
import Idealize.ShloMosaic.PureOps.Ideal
import Idealize.ShloMosaic.PureOps.Ideal.Laws
import Idealize.ShloMosaic.PureOps.Reduce
import Idealize.ShloMosaic.Lib.ValueIdx

noncomputable section

namespace Cert.RowMath

open Idealize.ShloMosaic Idealize.ShloMosaic.ValueIdx

/-! ## The two exponents' patterns -/

/-- The pattern of `2.0` denotes the real 2. -/
theorem ofBits_two : Ideal.ofBits .f32 0x40000000#32 = ((2 : ℝ) : EReal) := by
  simp [Ideal.ofBits, Ideal.ieee, -EReal.coe_mul]; norm_num

/-- The pattern of `0.5` denotes the real 1/2. -/
theorem ofBits_half : Ideal.ofBits .f32 0x3F000000#32 = ((1 / 2 : ℝ) : EReal) := by
  simp [Ideal.ofBits, Ideal.ieee, -EReal.coe_mul]; norm_num

/-! ## Squares and roots on the extended reals -/

/-- A square is never negative, the infinities' included (⊥·⊥ = ⊤). -/
theorem zero_le_mul_self (x : EReal) : 0 ≤ x * x := by
  induction x using EReal.rec with
  | bot => simp
  | top => simp
  | coe r => rw [← EReal.coe_mul]; exact_mod_cast mul_self_nonneg r

/-- So a sum of squares is never negative. -/
theorem zero_le_sum_mul_self {ι : Type*} (s : Finset ι) (f : ι → EReal) : 0 ≤ ∑ k ∈ s, f k * f k :=
  Finset.sum_nonneg fun k _ => zero_le_mul_self (f k)

/-- |x| ^ 2 = x · x on the extended reals. -/
theorem pow_abs_two (x : EReal) : Ideal.pow (max x (-x)) ((2 : ℝ) : EReal) = x * x := by
  have h2 : (0 : EReal) < ((2 : ℝ) : EReal) := by exact_mod_cast (two_pos : (0 : ℝ) < 2)
  induction x using EReal.rec with
  | bot => rw [EReal.neg_bot, max_eq_right bot_le, Ideal.pow_top, if_pos h2, EReal.bot_mul_bot]
  | top => rw [EReal.neg_top, max_eq_left bot_le, Ideal.pow_top, if_pos h2, EReal.top_mul_top]
  | coe r =>
    have h : max (r : EReal) (-(r : EReal)) = ((|r| : ℝ) : EReal) := by
      rw [← EReal.coe_neg, abs_eq_max_neg]; exact (EReal.coe_strictMono.monotone.map_max).symm
    rw [h, Ideal.pow_coe_coe, ← EReal.coe_mul]
    congr 1
    show |r| ^ (2 : ℝ) = r * r
    rw [Real.rpow_two, sq_abs, sq]

/-- s ^ (1/2) = √s for every extended real s ≥ 0. -/
theorem pow_half_of_nonneg {s : EReal} (hs : 0 ≤ s) : Ideal.pow s ((1 / 2 : ℝ) : EReal) = Ideal.sqrt s := by
  induction s using EReal.rec with
  | bot => exact absurd hs (by simp)
  | top =>
    rw [Ideal.pow_top, if_pos (by exact_mod_cast (by norm_num : (0 : ℝ) < 1 / 2)), Ideal.sqrt_top]
  | coe r =>
    have hr : 0 ≤ r := by exact_mod_cast hs
    rw [Ideal.pow_coe_coe, Ideal.sqrt_coe, if_neg (not_lt.mpr hr)]
    congr 1
    show r ^ (1 / 2 : ℝ) = Real.sqrt r
    rw [Real.sqrt_eq_rpow]

/-! ## The row functions -/

variable {n : Nat}

/-- The linear layer: entry (r, q) is the product of row r of x with column q of w, plus b at q. -/
def linear {K : Nat} (x : (⟨2, ![n, K]⟩ : Shape).Idx → EReal) (w : (⟨2, ![K, 256]⟩ : Shape).Idx → EReal)
    (b : (⟨1, ![256]⟩ : Shape).Idx → EReal) : (⟨2, ![n, 256]⟩ : Shape).Idx → EReal :=
  fun i => (∑ k : Fin K, x (ix2 (i 0) k) * w (ix2 k (i 1))) + b (ix1 (i 1))

theorem linear_apply {K : Nat} (x : (⟨2, ![n, K]⟩ : Shape).Idx → EReal) (w : (⟨2, ![K, 256]⟩ : Shape).Idx → EReal)
    (b : (⟨1, ![256]⟩ : Shape).Idx → EReal) (r : Fin n) (q : Fin 256) :
    linear x w b (ix2 r q) = (∑ k : Fin K, x (ix2 r k) * w (ix2 k q)) + b (ix1 q) := rfl

/-- Entry (r, q) of the row-normalised array: the entry over the root of its row's sum of squares. -/
def rowUnit (h : (⟨2, ![n, 256]⟩ : Shape).Idx → EReal) (r : Fin n) (q : Fin 256) : EReal :=
  Ideal.div (h (ix2 r q)) (Ideal.sqrt (∑ k : Fin 256, h (ix2 r k) * h (ix2 r k)))

/-- The row-normalised array. -/
def unitRows (h : (⟨2, ![n, 256]⟩ : Shape).Idx → EReal) : (⟨2, ![n, 256]⟩ : Shape).Idx → EReal :=
  fun i => rowUnit h (i 0) (i 1)

theorem unitRows_apply (h : (⟨2, ![n, 256]⟩ : Shape).Idx → EReal) (r : Fin n) (q : Fin 256) :
    unitRows h (ix2 r q) = rowUnit h r q := rfl

/-- The distance of row r of a from row r of b, each difference shifted by ε. -/
def rowDist (ε : EReal) (a b : (⟨2, ![n, 256]⟩ : Shape).Idx → EReal) (r : Fin n) : EReal :=
  Ideal.sqrt (∑ k : Fin 256, (a (ix2 r k) - b (ix2 r k) + ε) * (a (ix2 r k) - b (ix2 r k) + ε))

/-- The triplet flag of row r: 1 when the distance to c exceeds the distance to b by more than the margin μ. -/
def rowFlag (ε μ : EReal) (a b c : (⟨2, ![n, 256]⟩ : Shape).Idx → EReal) (r : Fin n) : BitVec 32 :=
  (Ideal.cmp .ogt (rowDist ε a c r - rowDist ε a b r) μ).setWidth 32

/-- The reference's spelling of the distance, |d|^2 summed from 0 and raised to 1/2, is `rowDist`. -/
theorem pow_form_eq_rowDist (ε : EReal) (a b : (⟨2, ![n, 256]⟩ : Shape).Idx → EReal) (r : Fin n) :
    Ideal.pow (Ideal.ofBits .f32 0x00000000#32
        + ∑ k : Fin 256, Ideal.pow (max (a (ix2 r k) - b (ix2 r k) + ε) (-(a (ix2 r k) - b (ix2 r k) + ε))) (Ideal.ofBits .f32 0x40000000#32))
      (Ideal.ofBits .f32 0x3F000000#32) = rowDist ε a b r := by
  rw [Ideal.ofBits_zero_f32, zero_add, ofBits_two, ofBits_half]
  simp only [pow_abs_two]
  exact pow_half_of_nonneg (zero_le_sum_mul_self _ _)

/-! ## A total integer sum does not see the array's shape -/

/-- The wrapping sum of every entry of a [N, 1] array of words equals that of the [N] array holding the same words:
    a total reduction by a commutative, associative operation is a fold over the set of all indices, and the two
    index sets correspond one to one. -/
theorem reduce_addi_col_eq_row {N : Nat} {u u' t t' : Shape}
    (X : (⟨2, ![N, 1]⟩ : Shape).Idx → BitVec 32) (Y : (⟨1, ![N]⟩ : Shape).Idx → BitVec 32)
    (hXY : ∀ r : Fin N, X (ix2 r 0) = Y (ix1 r))
    (init : u.Idx → BitVec 32) (init' : u'.Idx → BitVec 32)
    {axes : List (Fin (⟨2, ![N, 1]⟩ : Shape).rank)} {axes' : List (Fin (⟨1, ![N]⟩ : Shape).rank)}
    (h : (⟨2, ![N, 1]⟩ : Shape).ReducesTo axes t) (h' : (⟨1, ![N]⟩ : Shape).ReducesTo axes' t')
    (hu : 0 < u.numel) (hu' : 0 < u'.numel) (hinit : init (Shape.Idx.first hu) = init' (Shape.Idx.first hu'))
    (ht : ∀ (j j' : t.Idx), j = j') (ht' : ∀ (j j' : t'.Idx), j = j') (j : t.Idx) (j' : t'.Idx) :
    Host.reduce IntOp.addi X init h hu j = Host.reduce IntOp.addi Y init' h' hu' j' := by
  rw [Host.reduce_eq_fold, Host.reduce_eq_fold, hinit]
  rw [Finset.filter_true_of_mem (fun i _ => ht _ _), Finset.filter_true_of_mem (fun i _ => ht' _ _)]
  let e : (⟨2, ![N, 1]⟩ : Shape).Idx ≃ (⟨1, ![N]⟩ : Shape).Idx :=
    { toFun := fun i => ix1 (i 0)
      invFun := fun i => ix2 (i 0) 0
      left_inv := fun i => by
        funext a; match a with
        | ⟨0, _⟩ => rfl
        | ⟨1, h⟩ => exact Fin.ext (by have h1 : (i ⟨1, h⟩).val < 1 := (i ⟨1, h⟩).isLt; show 0 = (i ⟨1, h⟩).val; omega)
      right_inv := fun i => by funext a; match a with | ⟨0, _⟩ => rfl }
  have hX : X = Y ∘ e := funext fun i => by
    have : i = ix2 (i 0) 0 := by
      funext a; match a with
      | ⟨0, _⟩ => rfl
      | ⟨1, h⟩ => exact Fin.ext (by have h1 : (i ⟨1, h⟩).val < 1 := (i ⟨1, h⟩).isLt; show (i ⟨1, h⟩).val = 0; omega)
    rw [this]; exact hXY (i 0)
  rw [hX]
  have hm := Finset.fold_map (op := IntOp.addi) (b := init' (Shape.Idx.first hu')) (g := e.toEmbedding) (f := Y) (s := Finset.univ)
  rw [Finset.map_univ_equiv] at hm
  exact hm.symm

end Cert.RowMath

end
-- ==== Proof.RefStages.lean ====
/-
  The reference's stages grouped by what they compute, over the generated stage functions.

  The reference normalises three [16384, 256] arrays row by row (the image embedding and the two attribute embeddings),
  and from the three normalised arrays takes, row by row, the triplet flag: whether the distance to the negative exceeds
  the distance to the positive by more than the margin. Here each group of stages is one function of its operand arrays,
  the generated stage functions are those functions of earlier stages, and each is read index by index as the row
  function it is (Proof/RowMath.lean).
-/
import proofs.«135443_j3925600108806_1_alg».proof.Proof.Gen.ReferenceIdeal.Read
import proofs.«135443_j3925600108806_1_alg».proof.Proof.RowMath

set_option maxRecDepth 16384

noncomputable section

namespace Cert.ReferenceIdeal.Stages

open Cert.ReferenceIdeal Cert.ReferenceIdeal.Gen Cert.ReferenceIdeal.Read Idealize.ShloMosaic Idealize.ShloMosaic.TcCoe
open Idealize.ShloMosaic.ValueIdx Cert.RowMath

/-- A [16384, 256] array of extended reals. -/
abbrev Arr := FVec Ideal S16384x256 .f32

/-- The shift ε of the pairwise distance and the margin μ, as the extended reals their patterns denote. -/
abbrev eps : EReal := Ideal.ofBits .f32 0x358637BD#32
abbrev margin : EReal := Ideal.ofBits .f32 0x3E99999A#32

/-! ## Row normalisation -/

/-- The reference's normalisation of an array: divided by the broadcast root of the row sums of its square. -/
def rnorm (h : Arr) : Arr :=
  Host.divf (F := Ideal) h (broadcastInDim S16384x256 ![0, 1] bcast_S16384x1_S16384x256_0_1 (Host.sqrt (F := Ideal) (broadcastInDim S16384x1 ![0] bcast_S16384_S16384x1_0
    (Host.reduceAdd (F := Ideal) (mulf h h) (constant (F := Ideal) S_ .f32 0x00000000#32) reducesTo_S16384x256_S16384_d1 h_S_))))

/-- The host's quotient, root, power and absolute value read at an index. -/
theorem hostDivf_apply {s : Shape} {φ : FTy} (a b : FVec Ideal s φ) (i : s.Idx) : Host.divf (F := Ideal) a b i = Ideal.div (a i) (b i) := rfl
theorem hostSqrt_apply {s : Shape} {φ : FTy} (a : FVec Ideal s φ) (i : s.Idx) : Host.sqrt (F := Ideal) a i = Ideal.sqrt (a i) := rfl
theorem hostPowf_apply {s : Shape} {φ : FTy} (a b : FVec Ideal s φ) (i : s.Idx) : Host.powf (F := Ideal) a b i = Ideal.pow (a i) (b i) := rfl
theorem hostAbsf_apply {s : Shape} {φ : FTy} (a : FVec Ideal s φ) (i : s.Idx) : Host.absf (F := Ideal) a i = max (a i) (-(a i)) := rfl

/-- A row sum of the host, read at row r: the initial value plus the sum over the row's 256 entries. -/
theorem rowSum_apply (y : FVec Ideal S16384x256 .f32) (w : BitVec 32) (r : Fin 16384) :
    Host.reduceAdd (F := Ideal) y (constant (F := Ideal) S_ .f32 w) reducesTo_S16384x256_S16384_d1 h_S_ (ix1 r)
      = Ideal.ofBits .f32 w + ∑ k : Fin 256, y (ix2 r k) := by
  simp only [Host.reduceAdd, Ideal.hostReduceAdd_def]
  rw [Ideal.hostReduceAdd_single reducesTo_S16384x256_S16384_d1 (by decide)]
  refine congrArg (_ + ·) (Finset.sum_congr rfl fun k _ => ?_)
  exact congrArg y (funext fun a => Fin.ext (by match a with | ⟨0, _⟩ => rfl | ⟨1, _⟩ => rfl))

/-- Index by index it is the row-normalised array. -/
theorem rnorm_eq_unitRows (h : Arr) : rnorm h = unitRows h := by
  funext i
  obtain ⟨r, q, rfl⟩ : ∃ (r : Fin 16384) (q : Fin 256), i = ix2 r q := ⟨i 0, i 1, eq_ix2 i⟩
  rw [unitRows_apply]
  unfold rnorm rowUnit
  rw [hostDivf_apply, broadcastInDim_apply _ bcast_S16384x1_S16384x256_0_1 _ (ix2 r q) (ix2 r (0 : Fin 1)) (fun a => match a with
    | ⟨0, _⟩ => by show r.val = if (16384 : Nat) = 1 then 0 else r.val; rw [if_neg (by decide)]
    | ⟨1, _⟩ => by show 0 = if (1 : Nat) = 1 then 0 else q.val; rw [if_pos rfl]),
    hostSqrt_apply, broadcastInDim_apply _ bcast_S16384_S16384x1_0 _ (ix2 r (0 : Fin 1)) (ix1 r) (fun a => match a with
    | ⟨0, _⟩ => by show r.val = if (16384 : Nat) = 1 then 0 else r.val; rw [if_neg (by decide)]),
    rowSum_apply, Ideal.ofBits_zero_f32, zero_add]
  rfl

/-- The three normalised arrays of the reference are `rnorm` of the stages before them. -/
theorem v74_eq (x0 : (⟨S16384x2048, .f32⟩ : BufTy).Contents (Elt Ideal)) (x3 : (⟨S2048x256, .f32⟩ : BufTy).Contents (Elt Ideal))
    (x4 : (⟨S256, .f32⟩ : BufTy).Contents (Elt Ideal)) :
    val_main_v74 (F := Ideal) x0 x3 x4 = rnorm (val_main_v3 (F := Ideal) x0 x3 x4) := rfl

theorem v77_eq (x1 : (⟨S16384x40, .f32⟩ : BufTy).Contents (Elt Ideal)) (x5 : (⟨S40x256, .f32⟩ : BufTy).Contents (Elt Ideal))
    (x6 x7 x8 : (⟨S256, .f32⟩ : BufTy).Contents (Elt Ideal)) (x9 : (⟨S256x256, .f32⟩ : BufTy).Contents (Elt Ideal))
    (x10 : (⟨S256, .f32⟩ : BufTy).Contents (Elt Ideal)) :
    val_main_v77 (F := Ideal) x1 x5 x6 x7 x8 x9 x10 = rnorm (val_main_v37 (F := Ideal) x1 x5 x6 x7 x8 x9 x10) := rfl

theorem v80_eq (x2 : (⟨S16384x40, .f32⟩ : BufTy).Contents (Elt Ideal)) (x5 : (⟨S40x256, .f32⟩ : BufTy).Contents (Elt Ideal))
    (x6 x7 x8 : (⟨S256, .f32⟩ : BufTy).Contents (Elt Ideal)) (x9 : (⟨S256x256, .f32⟩ : BufTy).Contents (Elt Ideal))
    (x10 : (⟨S256, .f32⟩ : BufTy).Contents (Elt Ideal)) :
    val_main_v80 (F := Ideal) x2 x5 x6 x7 x8 x9 x10 = rnorm (val_main_v71 (F := Ideal) x2 x5 x6 x7 x8 x9 x10) := rfl

/-! ## The image embedding's linear layer -/

/-- The reference's product with the weights plus the broadcast bias is the linear layer, index by index. -/
theorem v3_eq_linear (x0 : (⟨S16384x2048, .f32⟩ : BufTy).Contents (Elt Ideal)) (x3 : (⟨S2048x256, .f32⟩ : BufTy).Contents (Elt Ideal))
    (x4 : (⟨S256, .f32⟩ : BufTy).Contents (Elt Ideal)) :
    val_main_v3 (F := Ideal) x0 x3 x4 = linear (n := 16384) (K := 2048) x0 x3 x4 := by
  funext i
  obtain ⟨r, q, rfl⟩ : ∃ (r : Fin 16384) (q : Fin 256), i = ix2 r q := ⟨i 0, i 1, eq_ix2 i⟩
  rw [linear_apply, val_main_v3_apply, val_main_v0_apply, val_main_v2_apply, val_main_v1_apply]
  show (∑ k : Fin 2048, x0 (lidx_main_v0 (ix2 r q) k) * x3 (ridx_main_v0 (ix2 r q) k)) + x4 (idx_main_v1 (idx_main_v2 (ix2 r q))) = _
  have el : ∀ k : Fin 2048, lidx_main_v0 (ix2 r q) k = ix2 r k := fun k =>
    funext fun a => Fin.ext (by match a with | ⟨0, _⟩ => rfl | ⟨1, _⟩ => rfl)
  have er : ∀ k : Fin 2048, ridx_main_v0 (ix2 r q) k = ix2 k q := fun k =>
    funext fun a => Fin.ext (by match a with | ⟨0, _⟩ => rfl | ⟨1, _⟩ => rfl)
  have eb : idx_main_v1 (idx_main_v2 (ix2 r q)) = ix1 q :=
    funext fun a => Fin.ext (by match a with | ⟨0, _⟩ => rfl)
  simp only [el, er, eb]

/-! ## The triplet flags -/

/-- The reference's pairwise distance of two arrays, row by row: |a - b + ε| ^ 2 summed over the row, to the power 1/2. -/
def pdist (a b : Arr) : FVec Ideal S16384 .f32 :=
  Host.powf (F := Ideal) (Host.reduceAdd (F := Ideal) (Host.powf (F := Ideal) (Host.absf (F := Ideal) (addf (subf a b) (broadcastInDim S16384x256 ![] bcast_S_S16384x256 (constant (F := Ideal) S_ .f32 0x358637BD#32))))
      (broadcastInDim S16384x256 ![] bcast_S_S16384x256 (constant (F := Ideal) S_ .f32 0x40000000#32))) (constant (F := Ideal) S_ .f32 0x00000000#32) reducesTo_S16384x256_S16384_d1 h_S_)
    (broadcastInDim S16384 ![] bcast_S_S16384 (constant (F := Ideal) S_ .f32 0x3F000000#32))

/-- Row r of it is the row distance. -/
theorem pdist_apply (a b : Arr) (r : Fin 16384) : pdist a b (ix1 r) = rowDist eps a b r := by
  rw [← pow_form_eq_rowDist]
  unfold pdist
  rw [hostPowf_apply, broadcastInDim_apply _ bcast_S_S16384 _ (ix1 r) ix0 (fun a => a.elim0), constant_apply, rowSum_apply]
  refine congrArg (fun s => Ideal.pow (Ideal.ofBits .f32 0x00000000#32 + s) (Ideal.ofBits .f32 0x3F000000#32)) ?_
  refine Finset.sum_congr rfl fun k _ => ?_
  rw [hostPowf_apply, hostAbsf_apply, broadcastInDim_apply _ bcast_S_S16384x256 _ (ix2 r k) ix0 (fun a => a.elim0), constant_apply,
    addf_apply, subf_apply, broadcastInDim_apply _ bcast_S_S16384x256 _ (ix2 r k) ix0 (fun a => a.elim0), constant_apply]

/-- The reference's flags from the three normalised arrays: the compare of the two distances' difference with the margin, widened. -/
def flags (a b c : Arr) : IVec S16384 32 :=
  extui 32 (cmpf (F := Ideal) .ogt (subf (pdist a c) (pdist a b)) (broadcastInDim S16384 ![] bcast_S_S16384 (constant (F := Ideal) S_ .f32 0x3E99999A#32))) natLt_1_32

/-- Row r of them is the row flag. -/
theorem flags_apply (a b c : Arr) (r : Fin 16384) : flags a b c (ix1 r) = rowFlag eps margin a b c r := by
  unfold flags rowFlag
  rw [extui_apply, cmpf_apply, Ideal.cmpf_def, subf_apply, pdist_apply, pdist_apply,
    broadcastInDim_apply _ bcast_S_S16384 _ (ix1 r) ix0 (fun a => a.elim0), constant_apply]

/-- The reference's flag stage is `flags` of its three normalised arrays. -/
theorem v102_eq (x0 : (⟨S16384x2048, .f32⟩ : BufTy).Contents (Elt Ideal)) (x1 x2 : (⟨S16384x40, .f32⟩ : BufTy).Contents (Elt Ideal))
    (x3 : (⟨S2048x256, .f32⟩ : BufTy).Contents (Elt Ideal)) (x4 : (⟨S256, .f32⟩ : BufTy).Contents (Elt Ideal))
    (x5 : (⟨S40x256, .f32⟩ : BufTy).Contents (Elt Ideal)) (x6 x7 x8 : (⟨S256, .f32⟩ : BufTy).Contents (Elt Ideal))
    (x9 : (⟨S256x256, .f32⟩ : BufTy).Contents (Elt Ideal)) (x10 : (⟨S256, .f32⟩ : BufTy).Contents (Elt Ideal)) :
    val_main_v102 (F := Ideal) x0 x1 x2 x3 x4 x5 x6 x7 x8 x9 x10
      = flags (val_main_v74 (F := Ideal) x0 x3 x4) (val_main_v77 (F := Ideal) x1 x5 x6 x7 x8 x9 x10) (val_main_v80 (F := Ideal) x2 x5 x6 x7 x8 x9 x10) := rfl

end Cert.ReferenceIdeal.Stages

end
-- ==== Proof.KBoundary.lean ====
/-
  The contents of @main's buffers at the boundaries between its segments, read where the results need them.

  @main runs the image-embedding region, then host operations (the attribute network, twice), then the triplet region,
  then the host's sum of the flags. Each returned buffer, and each array the triplet region reads, is followed back
  through the segments that do not write it to the segment that does.
-/
import proofs.«135443_j3925600108806_1_alg».proof.Proof.Gen.KernelIdeal.Frame

set_option maxRecDepth 16384

noncomputable section

namespace Cert.KernelIdeal.Boundary

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- The embedding array when the triplet region is entered is what the embedding region left: no host operation between
    the two regions writes it. -/
theorem entry1_emb (c : Dev nD) : V6 m ρ c main_v0 = (dat0 (V0 m ρ) c).arrAt 3 cfg0.N :=
  calc W6 m ρ c (Proc.devRef .tc main_v0)
    _ = W5 m ρ c (Proc.devRef .tc main_v0) := StableHlo.after_of_forall_not_mem (b := Proc.devRef .tc main_v0) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v0) := StableHlo.after_of_forall_not_mem (b := Proc.devRef .tc main_v0) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v0) := StableHlo.after_of_forall_not_mem (b := Proc.devRef .tc main_v0) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v0) := StableHlo.after_of_forall_not_mem (b := Proc.devRef .tc main_v0) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v0) := StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V0 m ρ) c).arrAt 3 cfg0.N := W1_arr m ρ c 3

/-- The returned embedding is the one the triplet region was entered with: that region only reads it, and the host's
    closing sum does not write it. -/
theorem exit_emb (c : Dev nD) : W8 m ρ c (Proc.devRef .tc main_v0) = (dat0 (V0 m ρ) c).arrAt 3 cfg0.N :=
  calc W8 m ρ c (Proc.devRef .tc main_v0)
    _ = W7 m ρ c (Proc.devRef .tc main_v0) := StableHlo.after_of_forall_not_mem (b := Proc.devRef .tc main_v0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V6 m ρ c main_v0 := (W7_arr m ρ c 0).trans (((dat1 (V6 m ρ) c).arrAt_in 0 rfl _).trans (A_eq1 (V6 m ρ) c 0))
    _ = (dat0 (V0 m ρ) c).arrAt 3 cfg0.N := entry1_emb m ρ c

/-- The returned normalised positive is the triplet region's first output array. -/
theorem exit_pos (c : Dev nD) : W8 m ρ c (Proc.devRef .tc main_v69_0) = (dat1 (V6 m ρ) c).arrAt 3 cfg1.N :=
  calc W8 m ρ c (Proc.devRef .tc main_v69_0)
    _ = W7 m ρ c (Proc.devRef .tc main_v69_0) := StableHlo.after_of_forall_not_mem (b := Proc.devRef .tc main_v69_0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat1 (V6 m ρ) c).arrAt 3 cfg1.N := W7_arr m ρ c 3

/-- The returned normalised negative is its second. -/
theorem exit_neg (c : Dev nD) : W8 m ρ c (Proc.devRef .tc main_v69_1) = (dat1 (V6 m ρ) c).arrAt 4 cfg1.N :=
  calc W8 m ρ c (Proc.devRef .tc main_v69_1)
    _ = W7 m ρ c (Proc.devRef .tc main_v69_1) := StableHlo.after_of_forall_not_mem (b := Proc.devRef .tc main_v69_1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat1 (V6 m ρ) c).arrAt 4 cfg1.N := W7_arr m ρ c 4

/-- The returned count is the host's wrapping sum of the triplet region's flag array, reshaped to one entry. -/
theorem exit_count (c : Dev nD) : W8 m ρ c (Proc.devRef .tc main_v71)
    = shapeCast _ (Host.reduce IntOp.addi ((dat1 (V6 m ρ) c).arrAt 5 cfg1.N) (constantI S_ 32 0#32) reducesTo_S16384x1_S_d0_1 h_S_) shapeCasts_S_S1 := by
  rw [← W7_arr m ρ c 5]
  show StableHlo.after hostOps2 (W7 m ρ c) (Proc.devRef .tc main_v71) = _
  after_results
  rfl

end Cert.KernelIdeal.Boundary

end
-- ==== Proof.HostChain.lean ====
/-
  The attribute network on the kernel's host side is the reference's.

  Between its two regions the kernel's @main applies to each attribute array the same operations, in the same order, as
  the reference: the first linear layer, batch normalisation over the 16384 rows (mean, biased variance, rsqrt, scale and
  shift), the rectifier, the second linear layer. The arrays the triplet region is entered with are therefore the
  reference's two attribute stages, as functions of the launch contents of the arguments: both sides are one composed
  term, and they are compared as such, never opened.
-/
import proofs.«135443_j3925600108806_1_alg».proof.Proof.Gen.KernelIdeal.Frame
import proofs.«135443_j3925600108806_1_alg».proof.Proof.Gen.ReferenceIdeal.Read

set_option maxRecDepth 16384

noncomputable section

namespace Cert.KernelIdeal.HostChain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- An argument the embedding region does not stage is, at that region's exit, as launched. -/
theorem W1_arg (c : Dev nD) (b : Ref sig .tc) (hb : ∀ w, Pipeline.arrRef spec0 w ≠ b) :
    W1 m ρ c (Proc.devRef .tc b) = m ((c : Thread nD τ).loc b) :=
  W1_of_ne m ρ c b hb

set_option maxHeartbeats 4000000 in
/-- The positive attribute array the triplet region is entered with is the reference's attribute stage of the
    positive attributes. -/
theorem entry1_pos (c : Dev nD) :
    V6 m ρ c main_v34 = Cert.ReferenceIdeal.Read.val_main_v37 (F := Ideal)
      (m ((c : Thread nD τ).loc main_arg1)) (m ((c : Thread nD τ).loc main_arg5)) (m ((c : Thread nD τ).loc main_arg6))
      (m ((c : Thread nD τ).loc main_arg7)) (m ((c : Thread nD τ).loc main_arg8)) (m ((c : Thread nD τ).loc main_arg9))
      (m ((c : Thread nD τ).loc main_arg10)) := by
  show StableHlo.after hostOps1_4 (StableHlo.after hostOps1_3 (StableHlo.after hostOps1_2 (StableHlo.after hostOps1_1
    (StableHlo.after hostOps1 (W1 m ρ c))))) (Proc.devRef .tc main_v34) = _
  simp only [hostOps1, hostOps1_1, hostOps1_2, hostOps1_3, hostOps1_4]
  after_results_simp
  rw [W1_arg m ρ c main_arg1 (by decide), W1_arg m ρ c main_arg5 (by decide), W1_arg m ρ c main_arg6 (by decide),
    W1_arg m ρ c main_arg7 (by decide), W1_arg m ρ c main_arg8 (by decide), W1_arg m ρ c main_arg9 (by decide),
    W1_arg m ρ c main_arg10 (by decide)]
  rfl

set_option maxHeartbeats 4000000 in
/-- The negative attribute array likewise. -/
theorem entry1_neg (c : Dev nD) :
    V6 m ρ c main_v68 = Cert.ReferenceIdeal.Read.val_main_v71 (F := Ideal)
      (m ((c : Thread nD τ).loc main_arg2)) (m ((c : Thread nD τ).loc main_arg5)) (m ((c : Thread nD τ).loc main_arg6))
      (m ((c : Thread nD τ).loc main_arg7)) (m ((c : Thread nD τ).loc main_arg8)) (m ((c : Thread nD τ).loc main_arg9))
      (m ((c : Thread nD τ).loc main_arg10)) := by
  show StableHlo.after hostOps1_4 (StableHlo.after hostOps1_3 (StableHlo.after hostOps1_2 (StableHlo.after hostOps1_1
    (StableHlo.after hostOps1 (W1 m ρ c))))) (Proc.devRef .tc main_v68) = _
  simp only [hostOps1, hostOps1_1, hostOps1_2, hostOps1_3, hostOps1_4]
  after_results_simp
  rw [W1_arg m ρ c main_arg2 (by decide), W1_arg m ρ c main_arg5 (by decide), W1_arg m ρ c main_arg6 (by decide),
    W1_arg m ρ c main_arg7 (by decide), W1_arg m ρ c main_arg8 (by decide), W1_arg m ρ c main_arg9 (by decide),
    W1_arg m ρ c main_arg10 (by decide)]
  rfl

end Cert.KernelIdeal.HostChain

end
-- ==== Proof.Region0.lean ====
/-
  The image-embedding region's output array, as one function of the arrays the region finds.

  Grid point t stages rows 1024·t … 1024·t + 1023 of the image features (all 2048 columns), the whole weight matrix and the
  whole bias; its body multiplies, adds the bias and divides each row by the root of its sum of squares, and the point
  writes the 1024 × 256 result back to the same rows of the output. Each operation of the body works row by row, so the
  block the point writes is the restriction to its rows of ONE whole-array function: the row-normalised linear layer.
-/
import proofs.«135443_j3925600108806_1_alg».proof.Proof.Gen.KernelIdeal.Frame
import proofs.«135443_j3925600108806_1_alg».proof.Proof.RowMath
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Embed

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.RowMath

variable (V : (c : Dev nD) → (b : Ref sig .tc) → Buf (Elt Ideal) ((c : Thread nD τ).loc b))

/-! ## Two layout steps of a row reduction kept as a column -/

/-- A length-a vector cast to a column [a, 1] reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product of a block of rows with the weights, entry by entry -/

/-- The left factor's index for output entry i and contraction index q: its row is i's row, -/
theorem lhs_embdot_0 (i : S1024x256.Idx) (q : dot_S1024x2048_S2048x256_S1024x256_1_0_0_1_n_n.contr.Idx) :
    (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
/-- its column is the contraction coordinate; -/
theorem lhs_embdot_1 (i : S1024x256.Idx) (q : dot_S1024x2048_S2048x256_S1024x256_1_0_0_1_n_n.contr.Idx) :
    (dot_S1024x2048_S2048x256_S1024x256_1_0_0_1_n_n.lhsIdx i q 1).val = (q ⟨0, by decide⟩).val :=
  dot_S1024x2048_S2048x256_S1024x256_1_0_0_1_n_n.lhsIdx_val_of_single rfl i q
/-- the right factor's row is the contraction coordinate, -/
theorem rhs_embdot_0 (i : S1024x256.Idx) (q : dot_S1024x2048_S2048x256_S1024x256_1_0_0_1_n_n.contr.Idx) :
    (dot_S1024x2048_S2048x256_S1024x256_1_0_0_1_n_n.rhsIdx i q 0).val = (q ⟨0, by decide⟩).val :=
  dot_S1024x2048_S2048x256_S1024x256_1_0_0_1_n_n.rhsIdx_val_of_single rfl i q
/-- and its column is i's column. -/
theorem rhs_embdot_1 (i : S1024x256.Idx) (q : dot_S1024x2048_S2048x256_S1024x256_1_0_0_1_n_n.contr.Idx) :
    (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-- The matrix product into a zero accumulator, at (p, q): row p of the left factor against column q of the right. -/
theorem matmul_at (l : FVec Ideal S1024x2048 .bf16) (r : FVec Ideal S2048x256 .bf16) (p : Fin 1024) (q : Fin 256) :
    matmul (F := Ideal) dot_S1024x2048_S2048x256_S1024x256_1_0_0_1_n_n none l r (constant S1024x256 .f32 0x00000000#32) (ix2 p q)
      = ∑ k : Fin 2048, l (ix2 p k) * r (ix2 k q) := by
  show FloatOps.matmul dot_S1024x2048_S2048x256_S1024x256_1_0_0_1_n_n none l r (constant S1024x256 .f32 0x00000000#32) (ix2 p q) = _
  rw [Ideal.matmul_constant_zero_apply, ← Equiv.sum_comp (ValueIdx.contrEquiv1 dot_S1024x2048_S2048x256_S1024x256_1_0_0_1_n_n 2048 rfl rfl).symm]
  refine Finset.sum_congr rfl fun k _ => ?_
  have hk := ValueIdx.contrEquiv1_symm_val dot_S1024x2048_S2048x256_S1024x256_1_0_0_1_n_n 2048 rfl rfl k
  have el : dot_S1024x2048_S2048x256_S1024x256_1_0_0_1_n_n.lhsIdx (ix2 p q) ((ValueIdx.contrEquiv1 dot_S1024x2048_S2048x256_S1024x256_1_0_0_1_n_n 2048 rfl rfl).symm k) = ix2 p k := funext fun a => Fin.ext (by
    match a with
    | ⟨0, _⟩ => exact lhs_embdot_0 _ _
    | ⟨1, _⟩ => exact (lhs_embdot_1 _ _).trans hk)
  have er : dot_S1024x2048_S2048x256_S1024x256_1_0_0_1_n_n.rhsIdx (ix2 p q) ((ValueIdx.contrEquiv1 dot_S1024x2048_S2048x256_S1024x256_1_0_0_1_n_n 2048 rfl rfl).symm k) = ix2 k q := funext fun a => Fin.ext (by
    match a with
    | ⟨0, _⟩ => exact (rhs_embdot_0 _ _).trans hk
    | ⟨1, _⟩ => exact rhs_embdot_1 _ _)
  rw [el, er]

/-! ## What a grid point's body stores -/

/-- The sum over the 256 lanes of a [1024, 256] block, at row p. -/
theorem laneSum_at (y : FVec Ideal S1024x256 .f32) (h : S1024x256.Reduces [1] S1024) (hφ : FKind.Formats .f32)
    (hacc : (0x00000000#32 : BitVec 32) = 0x00000000#32) (p : Fin 1024) :
    multiReduction (F := Ideal) .add [1] S1024 y 0x00000000#32 h hφ hacc (ix1 p) = ∑ k : Fin 256, y (ix2 p k) := by
  refine (Ideal.multiReduction_add_single y 0x00000000#32 h hφ hacc (ix1 p)).trans ?_
  refine Finset.sum_congr rfl fun k _ => congrArg y ?_
  funext a
  apply Fin.ext
  match a with
  | ⟨0, _⟩ => rfl
  | ⟨1, _⟩ => rfl

/-- A block divided, row by row, by the root of the row's sum of squares (the sum kept as a column and laid back over
    the lanes), at (p, q). -/
theorem unit_at (y : FVec Ideal S1024x256 .f32) (h : S1024x256.Reduces [1] S1024) (hφ : FKind.Formats .f32)
    (hacc : (0x00000000#32 : BitVec 32) = 0x00000000#32) (hc : S1024.ShapeCasts S1024x1) (hb : S1024x1.Broadcasts S1024x256)
    (p : Fin 1024) (q : Fin 256) :
    divf y (broadcastTo S1024x256 (sqrt (shapeCast S1024x1 (multiReduction (F := Ideal) .add [1] S1024 (mulf y y) 0x00000000#32 h hφ hacc) hc)) hb) (ix2 p q)
      = rowUnit y p q := by
  show Ideal.div (y (ix2 p q)) (broadcastTo S1024x256 (sqrt (shapeCast S1024x1 (multiReduction (F := Ideal) .add [1] S1024 (mulf y y) 0x00000000#32 h hφ hacc) hc)) hb (ix2 p q)) = _
  rw [broadcastTo_a1_ab_apply]
  show Ideal.div (y (ix2 p q)) (Ideal.sqrt (shapeCast S1024x1 (multiReduction (F := Ideal) .add [1] S1024 (mulf y y) 0x00000000#32 h hφ hacc) hc (ix2 p (0 : Fin 1)))) = _
  rw [shapeCast_a_a1_apply, laneSum_at]
  rfl

/-- The product plus the bias laid over the rows is the linear layer of the staged blocks. -/
theorem lin_eq (x0 : Vec Ideal S1024x2048 .f32) (x1 : Vec Ideal S2048x256 .f32) (x2 : Vec Ideal S256 .f32)
    (hc : S256.ShapeCasts S1x256) (hb : S1x256.Broadcasts S1024x256) :
    addf (matmul (F := Ideal) dot_S1024x2048_S2048x256_S1024x256_1_0_0_1_n_n none (truncf .bf16 x0 bitsLt_bf16_f32) (truncf .bf16 x1 bitsLt_bf16_f32) (constant S1024x256 .f32 0x00000000#32))
        (broadcastTo S1024x256 (shapeCast S1x256 x2 hc) hb)
      = linear (n := 1024) (K := 2048) x0 x1 x2 := by
  funext j
  obtain ⟨p, q, rfl⟩ : ∃ (p : Fin 1024) (q : Fin 256), j = ix2 p q := ⟨j 0, j 1, eq_ix2 j⟩
  rw [linear_apply, addf_apply, matmul_at, broadcastTo_1b_ab_apply, shapeCast_a_1a_apply]
  rfl

/-- The body's one store, at (p, q): the linear layer of the staged rows, each row divided by the root of its sum of squares. -/
theorem pay_at (x0 : Vec Ideal S1024x2048 .f32) (x1 : Vec Ideal S2048x256 .f32) (x2 : Vec Ideal S256 .f32) (p : Fin 1024) (q : Fin 256) :
    k0_pay1 (F := Ideal) x0 x1 x2 (ix2 p q) = rowUnit (linear (n := 1024) (K := 2048) x0 x1 x2) p q := by
  unfold k0_pay1
  refine (unit_at _ _ _ _ _ _ p q).trans ?_
  rw [lin_eq]

/-! ## From the blocks to the array -/

theorem zeros2 : (![0, 0] : Fin 2 → Nat) = fun _ => 0 := funext fun a => by fin_cases a <;> rfl
theorem zeros1 : (![0] : Fin 1 → Nat) = fun _ => 0 := funext fun a => by fin_cases a <;> rfl

/-- The printed index maps over the 16 grid points: the features' and the output's block index is (t, 0), the weights'
    (0, 0), the bias' (0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The features' block at point t is rows 1024·t … 1024·t + 1023 of the features, all columns. -/
theorem rows_block (c : Dev nD) (t : Fin cfg0.N) (x : S1024x2048.Idx) (i : S16384x2048.Idx)
    (h0 : (i 0).val = t.val * 1024 + (x 0).val) (h1 : (i 1).val = (x 1).val) :
    (iblk0 V c 0 t : Vec Ideal S1024x2048 .f32) x = (V c main_arg0 : S16384x2048.Idx → EReal) i := by
  obtain ⟨e0, e1, -⟩ := index_maps t
  show V c main_arg0 (((cfg0.win 0).blk t).view.emb x) = V c main_arg0 i
  refine congrArg _ ?_
  funext a
  apply Fin.ext
  match a with
  | ⟨0, _⟩ => show win0_0.index t (0 : Fin 2) * 1024 + 1 * (x 0).val = (i 0).val; rw [e0, h0]; omega
  | ⟨1, _⟩ => show win0_0.index t (1 : Fin 2) * 2048 + 1 * (x 1).val = (i 1).val; rw [e1, h1]; omega

/-- The weights' block is the whole weight matrix, at every point. -/
theorem weights_block (c : Dev nD) (t : Fin cfg0.N) :
    (iblk0 V c 1 t : Vec Ideal S2048x256 .f32) = (V c main_arg3 : S2048x256.Idx → EReal) := by
  obtain ⟨-, -, e0, e1, -⟩ := index_maps t
  funext x
  show V c main_arg3 (((cfg0.win 1).blk t).view.emb x) = V c main_arg3 x
  refine congrArg _ ?_
  funext a
  apply Fin.ext
  match a with
  | ⟨0, _⟩ => show win0_1.index t (0 : Fin 2) * 2048 + 1 * (x 0).val = (x 0).val; rw [e0]; omega
  | ⟨1, _⟩ => show win0_1.index t (1 : Fin 2) * 256 + 1 * (x 1).val = (x 1).val; rw [e1]; omega

/-- The bias' block is the whole bias, at every point. -/
theorem bias_block (c : Dev nD) (t : Fin cfg0.N) :
    (iblk0 V c 2 t : Vec Ideal S256 .f32) = (V c main_arg4 : S256.Idx → EReal) := by
  obtain ⟨-, -, -, -, e0, -⟩ := index_maps t
  funext x
  show V c main_arg4 (((cfg0.win 2).blk t).view.emb x) = V c main_arg4 x
  refine congrArg _ ?_
  funext a
  apply Fin.ext
  match a with
  | ⟨0, _⟩ => show win0_2.index t (0 : Fin 1) * 256 + 1 * (x 0).val = (x 0).val; rw [e0]; omega

/-- The body's store over a block of rows of the features is the same rows of the row-normalised linear layer of all
    the features: an entry of the layer reads one row of the features only, and so does the row's sum of squares. -/
theorem store_rows (x0 : Vec Ideal S1024x2048 .f32) (x1 : Vec Ideal S2048x256 .f32) (x2 : Vec Ideal S256 .f32)
    (A0 : S16384x2048.Idx → EReal) (A3 : S2048x256.Idx → EReal) (A4 : S256.Idx → EReal) (tv : Nat)
    (h0 : ∀ (x : S1024x2048.Idx) (i : S16384x2048.Idx), (i 0).val = tv * 1024 + (x 0).val → (i 1).val = (x 1).val → x0 x = A0 i)
    (h1 : x1 = A3) (h2 : x2 = A4)
    (j : S1024x256.Idx) (i : S16384x256.Idx) (hi0 : (i 0).val = tv * 1024 + (j 0).val) (hi1 : (i 1).val = (j 1).val) :
    k0_pay1 (F := Ideal) x0 x1 x2 j = unitRows (linear (n := 16384) (K := 2048) A0 A3 A4) i := by
  obtain ⟨p, q, rfl⟩ : ∃ (p : Fin 1024) (q : Fin 256), j = ix2 p q := ⟨j 0, j 1, eq_ix2 j⟩
  obtain ⟨r, s, rfl⟩ : ∃ (r : Fin 16384) (s : Fin 256), i = ix2 r s := ⟨i 0, i 1, eq_ix2 i⟩
  have hr : r.val = tv * 1024 + p.val := hi0
  obtain rfl : s = q := Fin.ext hi1
  have hl : ∀ k : Fin 256, linear (n := 1024) (K := 2048) x0 x1 x2 (ix2 p k) = linear (n := 16384) (K := 2048) A0 A3 A4 (ix2 r k) := fun k => by
    rw [linear_apply, linear_apply, h1, h2]
    refine congrArg (· + A4 (ix1 k)) (Finset.sum_congr rfl fun k' _ => ?_)
    rw [h0 (ix2 p k') (ix2 r k') hr rfl]
  rw [pay_at, unitRows_apply]
  unfold rowUnit
  simp only [hl]

/-- What point t writes back is rows 1024·t … 1024·t + 1023 of the row-normalised linear layer of the arrays the region finds. -/
theorem flushed_rows (c : Dev nD) (t : Fin cfg0.N) :
    (dat0 (F := Ideal) V c).flushed 3 t
      = ((cfg0.win 3).blk t).view.read (Elt Ideal) (unitRows (linear (n := 16384) (K := 2048) (V c main_arg0) (V c main_arg3) (V c main_arg4))) := by
  show (cfg0.win 3).cut (grid0.coords t) ((dat0 V c).after 3 t) = _
  rw [after0_3]
  unfold out0_3
  rw [View.canon_unit_zero zeros2]
  simp only [View.ld_unit_zero (S := S1024x2048) zeros2, View.ld_unit_zero (S := S2048x256) zeros2, View.ld_unit_zero (S := S256) zeros1]
  obtain ⟨-, -, -, -, -, e0, e1⟩ := index_maps t
  funext j
  refine store_rows (iblk0 V c 0 t) (iblk0 V c 1 t) (iblk0 V c 2 t) (V c main_arg0) (V c main_arg3) (V c main_arg4) t.val
    (rows_block V c t) (weights_block V c t) (bias_block V c t) j (((cfg0.win 3).blk t).view.emb j) ?_ ?_
  · show win0_3.index t (0 : Fin 2) * 1024 + 1 * (j 0).val = t.val * 1024 + (j 0).val; rw [e0]; omega
  · show win0_3.index t (1 : Fin 2) * 256 + 1 * (j 1).val = (j 1).val; rw [e1]; omega

/-- An index of the output array is in point t's block iff each coordinate is in the block's range on its axis. -/
theorem mem_rows (t : Fin cfg0.N) (i : S16384x256.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v0).slice (win0_3.rect t)).set ↔ _
  rw [View.set_slice_whole, Rect.mem_set_unit]
  exact Iff.rfl

/-- Every row of the output is in the block of the point that is the row's number over 1024, and every point writes back. -/
theorem rows_covered (i : S16384x256.Idx) :
    ∃ t : Fin cfg0.N, (cfg0.win 3).flush t = true ∧ i ∈ ((cfg0.win 3).blk t).view.set := by
  have hi0 : (i 0).val < 16384 := (i 0).isLt
  have hi1 : (i 1).val < 256 := (i 1).isLt
  have hN : cfg0.N = 16 := N_0
  let t : Fin cfg0.N := ⟨(i 0).val / 1024, by rw [hN]; omega⟩
  obtain ⟨-, -, -, -, -, e0, e1⟩ := index_maps t
  have e0' : win0_3.index t (0 : Fin 2) = (i 0).val / 1024 := e0
  refine ⟨t, flush0_3 t, ?_⟩
  rw [mem_rows]
  intro a
  match a with
  | ⟨0, _⟩ => show win0_3.index t (0 : Fin 2) * 1024 ≤ (i 0).val ∧ (i 0).val < win0_3.index t (0 : Fin 2) * 1024 + 1024; rw [e0']; omega
  | ⟨1, _⟩ => show win0_3.index t (1 : Fin 2) * 256 ≤ (i 1).val ∧ (i 1).val < win0_3.index t (1 : Fin 2) * 256 + 256; rw [e1]; omega

/-- THE ARRAY after the region: the row-normalised linear layer of the image features, the weights and the bias as the
    region finds them. -/
theorem emb_final (c : Dev nD) :
    (dat0 (F := Ideal) V c).arrAt 3 cfg0.N
      = unitRows (linear (n := 16384) (K := 2048) (V c main_arg0) (V c main_arg3) (V c main_arg4)) := by
  exact (dat0 (F := Ideal) V c).arrAt_eq_of_cover 3 _ (fun t _ => flushed_rows V c t) rows_covered

end Cert.KernelIdeal.Embed

end
-- ==== Proof.Region1.lean ====
/-
  The triplet region's three output arrays, as functions of the arrays the region finds.

  Grid point t stages rows 2048·t … 2048·t + 2047 of the embedding and of the two attribute arrays (all 256 columns each).
  Its body normalises the two attribute blocks row by row and writes them back to the same rows of the first two outputs;
  from the embedding block and the two normalised blocks it takes, row by row, the two shifted distances and the flag
  "the distance to the negative exceeds the distance to the positive by more than the margin", written to the same rows
  of the [16384, 1] flag array. Every operation works row by row, so each block is the restriction to its rows of one
  whole-array function.
-/
import proofs.«135443_j3925600108806_1_alg».proof.Proof.Gen.KernelIdeal.Frame
import proofs.«135443_j3925600108806_1_alg».proof.Proof.RowMath
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Triplet

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.RowMath

variable (V : (c : Dev nD) → (b : Ref sig .tc) → Buf (Elt Ideal) ((c : Thread nD τ).loc b))

/-- The shift ε of the pairwise distance and the margin μ, as the extended reals their patterns denote. -/
abbrev eps : EReal := Ideal.ofBits .f32 0x358637BD#32
abbrev margin : EReal := Ideal.ofBits .f32 0x3E99999A#32

/-! ## The body's payloads, read at an index -/

/-- The lane sum of a block, kept as a column, read at row p: the sum over the row. -/
theorem laneSum_col_apply (y : FVec Ideal S2048x256 .f32) (hr : S2048x256.Reduces [1] S2048) (hφ : FKind.Formats .f32)
    (hacc : (0x00000000#32 : BitVec 32) = FKind.add.neutral .f32 hφ) (hc : S2048.ShapeCasts S2048x1) (p : Fin 2048) :
    shapeCast S2048x1 (multiReduction (F := Ideal) .add [1] S2048 y 0x00000000#32 hr hφ hacc) hc (ix2 p (0 : Fin 1))
      = ∑ k : Fin 256, y (ix2 p k) := by
  refine (shapeCast_apply _ hc (ix2 p (0 : Fin 1)) (ix1 p) ?_).trans ?_
  · rw [Shape.rowMajor_val_one, Shape.rowMajor_val_two]
    show p.val = p.val * 1 + 0
    omega
  · refine (Ideal.multiReduction_add_single y 0x00000000#32 hr hφ hacc (ix1 p)).trans ?_
    refine Finset.sum_congr rfl fun k _ => congrArg y ?_
    funext a
    match a with
    | ⟨0, _⟩ => rfl
    | ⟨1, _⟩ => rfl

/-- A column broadcast along the lanes reads, at (p, q), the column's entry at row p. -/
theorem col_broadcast_apply (v : FVec Ideal S2048x1 .f32) (hb : S2048x1.Broadcasts S2048x256) (p : Fin 2048) (q : Fin 256) :
    broadcastTo S2048x256 v hb (ix2 p q) = v (ix2 p (0 : Fin 1)) := by
  refine broadcastTo_apply v hb (ix2 p q) (ix2 p (0 : Fin 1)) fun ax => ?_
  match ax with
  | ⟨0, _⟩ =>
    show p.val = if (2048 : Nat) = 1 then 0 else p.val
    rw [if_neg (by decide)]
  | ⟨1, _⟩ =>
    show (0 : Nat) = if (1 : Nat) = 1 then 0 else q.val
    rw [if_pos rfl]

/-- A block divided by the broadcast root of its rows' sums of squares is the block row-normalised. -/
theorem normalise_apply (y : FVec Ideal S2048x256 .f32) (hr : S2048x256.Reduces [1] S2048) (hφ : FKind.Formats .f32)
    (hacc : (0x00000000#32 : BitVec 32) = FKind.add.neutral .f32 hφ) (hc : S2048.ShapeCasts S2048x1)
    (hb : S2048x1.Broadcasts S2048x256) (p : Fin 2048) (q : Fin 256) :
    divf y (broadcastTo S2048x256 (sqrt (shapeCast S2048x1 (multiReduction (F := Ideal) .add [1] S2048 (mulf y y) 0x00000000#32 hr hφ hacc) hc)) hb) (ix2 p q)
      = rowUnit y p q := by
  rw [divf_apply, col_broadcast_apply]
  show Ideal.div (y (ix2 p q)) (Ideal.sqrt (shapeCast S2048x1 (multiReduction (F := Ideal) .add [1] S2048 (mulf y y) 0x00000000#32 hr hφ hacc) hc (ix2 p (0 : Fin 1)))) = _
  rw [laneSum_col_apply]
  rfl

/-- The first normalising payload is the row-normalised block. -/
theorem pay1_apply (x : Vec Ideal S2048x256 .f32) (p : Fin 2048) (q : Fin 256) :
    k1_pay1 (F := Ideal) x (ix2 p q) = rowUnit x p q := by
  unfold k1_pay1
  dsimp only
  rw [shapeCast_self]
  exact normalise_apply x _ _ _ _ _ p q

/-- The second likewise. -/
theorem pay2_apply (x : Vec Ideal S2048x256 .f32) (p : Fin 2048) (q : Fin 256) :
    k1_pay2 (F := Ideal) x (ix2 p q) = rowUnit x p q := by
  unfold k1_pay2
  dsimp only
  rw [shapeCast_self]
  exact normalise_apply x _ _ _ _ _ p q

theorem pay1_eq (x : Vec Ideal S2048x256 .f32) : k1_pay1 (F := Ideal) x = unitRows x := by
  funext j
  obtain ⟨p, q, rfl⟩ : ∃ (p : Fin 2048) (q : Fin 256), j = ix2 p q := ⟨j 0, j 1, eq_ix2 j⟩
  exact pay1_apply x p q

theorem pay2_eq (x : Vec Ideal S2048x256 .f32) : k1_pay2 (F := Ideal) x = unitRows x := by
  funext j
  obtain ⟨p, q, rfl⟩ : ∃ (p : Fin 2048) (q : Fin 256), j = ix2 p q := ⟨j 0, j 1, eq_ix2 j⟩
  exact pay2_apply x p q

/-- The root of the lane sum of the shifted differences' squares, kept as a column, is the row distance. -/
theorem dist_col_apply (a b : FVec Ideal S2048x256 .f32) (hr : S2048x256.Reduces [1] S2048) (hφ : FKind.Formats .f32)
    (hacc : (0x00000000#32 : BitVec 32) = FKind.add.neutral .f32 hφ) (hc : S2048.ShapeCasts S2048x1) (p : Fin 2048) :
    sqrt (shapeCast S2048x1 (multiReduction (F := Ideal) .add [1] S2048
        (mulf (addf (subf a b) (broadcast S2048x256 eps)) (addf (subf a b) (broadcast S2048x256 eps))) 0x00000000#32 hr hφ hacc) hc) (ix2 p (0 : Fin 1))
      = rowDist eps a b p := by
  show Ideal.sqrt (shapeCast S2048x1 (multiReduction (F := Ideal) .add [1] S2048
        (mulf (addf (subf a b) (broadcast S2048x256 eps)) (addf (subf a b) (broadcast S2048x256 eps))) 0x00000000#32 hr hφ hacc) hc (ix2 p (0 : Fin 1))) = _
  rw [laneSum_col_apply]
  rfl

/-- The flag payload at row p: the triplet flag of the embedding block against the two normalised blocks. -/
theorem pay3_apply (x0 x1 x2 : Vec Ideal S2048x256 .f32) (p : Fin 2048) :
    k1_pay3 (F := Ideal) x0 x1 x2 (ix2 p (0 : Fin 1)) = rowFlag eps margin x0 (unitRows x1) (unitRows x2) p := by
  unfold k1_pay3
  dsimp only
  rw [shapeCast_self, pay1_eq, pay2_eq, extui_apply, cmpf_apply, subf_apply, broadcast_apply]
  exact congrArg (fun d : EReal => (Ideal.cmp .ogt d margin).setWidth 32)
    (congrArg₂ (fun u v : EReal => u - v) (dist_col_apply x0 (unitRows x2) _ _ _ _ p) (dist_col_apply x0 (unitRows x1) _ _ _ _ p))

/-! ## Row functions read only their row -/

theorem rowUnit_congr {n m : Nat} (h : (⟨2, ![n, 256]⟩ : Shape).Idx → EReal) (h' : (⟨2, ![m, 256]⟩ : Shape).Idx → EReal)
    (r : Fin n) (r' : Fin m) (hrow : ∀ k : Fin 256, h (ix2 r k) = h' (ix2 r' k)) (q : Fin 256) :
    rowUnit h r q = rowUnit h' r' q := by
  unfold rowUnit
  simp only [hrow]

theorem rowDist_congr {n m : Nat} (ε : EReal) (a b : (⟨2, ![n, 256]⟩ : Shape).Idx → EReal) (a' b' : (⟨2, ![m, 256]⟩ : Shape).Idx → EReal)
    (r : Fin n) (r' : Fin m) (ha : ∀ k : Fin 256, a (ix2 r k) = a' (ix2 r' k)) (hb : ∀ k : Fin 256, b (ix2 r k) = b' (ix2 r' k)) :
    rowDist ε a b r = rowDist ε a' b' r' := by
  unfold rowDist
  simp only [ha, hb]

theorem rowFlag_congr {n m : Nat} (ε μ : EReal) (a b d : (⟨2, ![n, 256]⟩ : Shape).Idx → EReal) (a' b' d' : (⟨2, ![m, 256]⟩ : Shape).Idx → EReal)
    (r : Fin n) (r' : Fin m) (ha : ∀ k : Fin 256, a (ix2 r k) = a' (ix2 r' k)) (hb : ∀ k : Fin 256, b (ix2 r k) = b' (ix2 r' k))
    (hd : ∀ k : Fin 256, d (ix2 r k) = d' (ix2 r' k)) :
    rowFlag ε μ a b d r = rowFlag ε μ a' b' d' r' := by
  unfold rowFlag
  rw [rowDist_congr ε a d a' d' r r' ha hd, rowDist_congr ε a b a' b' r r' ha hb]

/-! ## The windows' blocks -/

theorem hz : (![0, 0] : Fin 2 → Nat) = fun _ => 0 := funext fun a => by fin_cases a <;> rfl

/-- Every window's block index at point t is (t, 0): checked at each of the eight points. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

theorem point_lt (t : Fin cfg1.N) : t.val < 8 :=
  lt_of_lt_of_eq t.isLt (show cfg1.N = 8 from N_1)

/-- The array row that row p of point t's blocks is. -/
abbrev arow (t : Fin cfg1.N) (p : Fin 2048) : Fin 16384 := ⟨t.val * 2048 + p.val, by have := point_lt t; have := p.isLt; omega⟩

/-- The embedding window's block at point t is rows 2048·t … of the embedding array. -/
theorem blk0_apply (c : Dev nD) (t : Fin cfg1.N) (p : Fin 2048) (k : Fin 256) :
    (iblk1 V c 0 t : Vec Ideal S2048x256 .f32) (ix2 p k) = (V c main_v0 : S16384x256.Idx → EReal) (ix2 (arow t p) k) := by
  obtain ⟨e0, e1, -⟩ := block_index t
  unfold iblk1
  rw [View.read_apply]
  show V c main_v0 _ = V c main_v0 _
  congr 1
  funext a
  apply Fin.ext
  match a with
  | ⟨0, _⟩ => show win1_0.index t (0 : Fin 2) * 2048 + 1 * p.val = t.val * 2048 + p.val; rw [e0]; omega
  | ⟨1, _⟩ => show win1_0.index t (1 : Fin 2) * 256 + 1 * k.val = k.val; rw [e1]; omega

/-- The positive-attribute window's block at point t is the same rows of the positive attribute array. -/
theorem blk1_apply (c : Dev nD) (t : Fin cfg1.N) (p : Fin 2048) (k : Fin 256) :
    (iblk1 V c 1 t : Vec Ideal S2048x256 .f32) (ix2 p k) = (V c main_v34 : S16384x256.Idx → EReal) (ix2 (arow t p) k) := by
  obtain ⟨-, -, e0, e1, -⟩ := block_index t
  unfold iblk1
  rw [View.read_apply]
  show V c main_v34 _ = V c main_v34 _
  congr 1
  funext a
  apply Fin.ext
  match a with
  | ⟨0, _⟩ => show win1_1.index t (0 : Fin 2) * 2048 + 1 * p.val = t.val * 2048 + p.val; rw [e0]; omega
  | ⟨1, _⟩ => show win1_1.index t (1 : Fin 2) * 256 + 1 * k.val = k.val; rw [e1]; omega

/-- The negative-attribute window's block at point t is the same rows of the negative attribute array. -/
theorem blk2_apply (c : Dev nD) (t : Fin cfg1.N) (p : Fin 2048) (k : Fin 256) :
    (iblk1 V c 2 t : Vec Ideal S2048x256 .f32) (ix2 p k) = (V c main_v68 : S16384x256.Idx → EReal) (ix2 (arow t p) k) := by
  obtain ⟨-, -, -, -, e0, e1, -⟩ := block_index t
  unfold iblk1
  rw [View.read_apply]
  show V c main_v68 _ = V c main_v68 _
  congr 1
  funext a
  apply Fin.ext
  match a with
  | ⟨0, _⟩ => show win1_2.index t (0 : Fin 2) * 2048 + 1 * p.val = t.val * 2048 + p.val; rw [e0]; omega
  | ⟨1, _⟩ => show win1_2.index t (1 : Fin 2) * 256 + 1 * k.val = k.val; rw [e1]; omega

/-! ## What each point writes back -/

/-- Entry (p, q) of point t's block of the first output sits at row 2048·t + p, column q of the array. -/
theorem pos_emb (t : Fin cfg1.N) (p : Fin 2048) (q : Fin 256) :
    ((cfg1.win 3).blk t).view.emb (ix2 p q) = ix2 (arow t p) q := by
  obtain ⟨-, -, -, -, -, -, e0, e1, -⟩ := block_index t
  funext a
  apply Fin.ext
  match a with
  | ⟨0, _⟩ => show win1_3.index t (0 : Fin 2) * 2048 + 1 * p.val = t.val * 2048 + p.val; rw [e0]; omega
  | ⟨1, _⟩ => show win1_3.index t (1 : Fin 2) * 256 + 1 * q.val = q.val; rw [e1]; omega

/-- The same for the second output. -/
theorem neg_emb (t : Fin cfg1.N) (p : Fin 2048) (q : Fin 256) :
    ((cfg1.win 4).blk t).view.emb (ix2 p q) = ix2 (arow t p) q := by
  obtain ⟨-, -, -, -, -, -, -, -, e0, e1, -⟩ := block_index t
  funext a
  apply Fin.ext
  match a with
  | ⟨0, _⟩ => show win1_4.index t (0 : Fin 2) * 2048 + 1 * p.val = t.val * 2048 + p.val; rw [e0]; omega
  | ⟨1, _⟩ => show win1_4.index t (1 : Fin 2) * 256 + 1 * q.val = q.val; rw [e1]; omega

/-- Entry (p, 0) of point t's block of the flag array sits at row 2048·t + p of the array. -/
theorem flag_emb (t : Fin cfg1.N) (p : Fin 2048) :
    ((cfg1.win 5).blk t).view.emb (ix2 p (0 : Fin 1)) = ix2 (arow t p) (0 : Fin 1) := by
  obtain ⟨-, -, -, -, -, -, -, -, -, -, e0, e1⟩ := block_index t
  funext a
  apply Fin.ext
  match a with
  | ⟨0, _⟩ => show win1_5.index t (0 : Fin 2) * 2048 + 1 * p.val = t.val * 2048 + p.val; rw [e0]; omega
  | ⟨1, _⟩ => show win1_5.index t (1 : Fin 2) * 1 + 1 * 0 = 0; rw [e1]

/-- Point t writes back, to the first output, its rows of the row-normalised positive attribute array. -/
theorem pos_flushed (c : Dev nD) (t : Fin cfg1.N) :
    (dat1 (F := Ideal) V c).flushed 3 t
      = ((cfg1.win 3).blk t).view.read (Elt Ideal) (unitRows (n := 16384) (V c main_v34)) := by
  show (cfg1.win 3).cut (grid1.coords t) ((dat1 (F := Ideal) V c).after 3 t) = _
  rw [after1_3]
  unfold out1_3
  rw [View.canon_unit_zero hz]
  simp only [View.ld_unit_zero (S := S2048x256) hz]
  rw [pay1_eq]
  funext j
  obtain ⟨p, q, rfl⟩ : ∃ (p : Fin 2048) (q : Fin 256), j = ix2 p q := ⟨j 0, j 1, eq_ix2 j⟩
  show unitRows (iblk1 V c 1 t : Vec Ideal S2048x256 .f32) (ix2 p q)
    = unitRows (n := 16384) (V c main_v34) (((cfg1.win 3).blk t).view.emb (ix2 p q))
  rw [pos_emb, unitRows_apply, unitRows_apply]
  exact rowUnit_congr _ _ p (arow t p) (fun k => blk1_apply V c t p k) q

/-- Point t writes back, to the second output, its rows of the row-normalised negative attribute array. -/
theorem neg_flushed (c : Dev nD) (t : Fin cfg1.N) :
    (dat1 (F := Ideal) V c).flushed 4 t
      = ((cfg1.win 4).blk t).view.read (Elt Ideal) (unitRows (n := 16384) (V c main_v68)) := by
  show (cfg1.win 4).cut (grid1.coords t) ((dat1 (F := Ideal) V c).after 4 t) = _
  rw [after1_4]
  unfold out1_4
  rw [View.canon_unit_zero hz]
  simp only [View.ld_unit_zero (S := S2048x256) hz]
  rw [pay2_eq]
  funext j
  obtain ⟨p, q, rfl⟩ : ∃ (p : Fin 2048) (q : Fin 256), j = ix2 p q := ⟨j 0, j 1, eq_ix2 j⟩
  show unitRows (iblk1 V c 2 t : Vec Ideal S2048x256 .f32) (ix2 p q)
    = unitRows (n := 16384) (V c main_v68) (((cfg1.win 4).blk t).view.emb (ix2 p q))
  rw [neg_emb, unitRows_apply, unitRows_apply]
  exact rowUnit_congr _ _ p (arow t p) (fun k => blk2_apply V c t p k) q

/-- The flag array as one function of the three arrays the region finds: row by row the triplet flag. -/
abbrev flagArray (c : Dev nD) : S16384x1.Idx → BitVec 32 := fun i =>
  rowFlag (n := 16384) eps margin (V c main_v0) (unitRows (n := 16384) (V c main_v34)) (unitRows (n := 16384) (V c main_v68)) (i 0)

/-- Point t writes back, to the flag array, its rows of the flag function. -/
theorem flag_flushed (c : Dev nD) (t : Fin cfg1.N) :
    (dat1 (F := Ideal) V c).flushed 5 t = ((cfg1.win 5).blk t).view.read (Elt Ideal) (flagArray V c) := by
  show (cfg1.win 5).cut (grid1.coords t) ((dat1 (F := Ideal) V c).after 5 t) = _
  rw [after1_5]
  unfold out1_5
  rw [View.canon_unit_zero hz]
  simp only [View.ld_unit_zero (S := S2048x256) hz]
  funext j
  obtain ⟨p, u, rfl⟩ : ∃ (p : Fin 2048) (u : Fin 1), j = ix2 p u := ⟨j 0, j 1, eq_ix2 j⟩
  obtain rfl : u = 0 := Subsingleton.elim _ _
  show k1_pay3 (F := Ideal) (iblk1 V c 0 t) (iblk1 V c 1 t) (iblk1 V c 2 t) (ix2 p (0 : Fin 1))
    = flagArray V c (((cfg1.win 5).blk t).view.emb (ix2 p (0 : Fin 1)))
  rw [pay3_apply, flag_emb]
  show rowFlag eps margin _ _ _ p = rowFlag (n := 16384) eps margin _ _ _ (arow t p)
  refine rowFlag_congr eps margin _ _ _ _ _ _ p (arow t p) (fun k => blk0_apply V c t p k) (fun k => ?_) (fun k => ?_)
  · rw [unitRows_apply, unitRows_apply]
    exact rowUnit_congr _ _ p (arow t p) (fun k' => blk1_apply V c t p k') k
  · rw [unitRows_apply, unitRows_apply]
    exact rowUnit_congr _ _ p (arow t p) (fun k' => blk2_apply V c t p k') k

/-! ## The blocks tile the arrays -/

/-- The point whose blocks hold array row r. -/
abbrev pointOf (r : Nat) (h : r < 16384) : Fin cfg1.N :=
  ⟨r / 2048, lt_of_lt_of_eq (by omega : r / 2048 < 8) (show 8 = cfg1.N from N_1.symm)⟩

/-- An index of the first output is in point t's block iff each coordinate is in the block's range on its axis. -/
theorem pos_mem_blk (t : Fin cfg1.N) (i : S16384x256.Idx) :
    i ∈ ((cfg1.win 3).blk t).view.set ↔ ∀ a : Fin 2, win1_3.index t a * S2048x256.size a ≤ (i a).val ∧ (i a).val < win1_3.index t a * S2048x256.size a + S2048x256.size a := by
  show i ∈ ((View.whole main_v69_0).slice (win1_3.rect t)).set ↔ _
  rw [View.set_slice_whole, Rect.mem_set_unit]
  exact Iff.rfl

theorem neg_mem_blk (t : Fin cfg1.N) (i : S16384x256.Idx) :
    i ∈ ((cfg1.win 4).blk t).view.set ↔ ∀ a : Fin 2, win1_4.index t a * S2048x256.size a ≤ (i a).val ∧ (i a).val < win1_4.index t a * S2048x256.size a + S2048x256.size a := by
  show i ∈ ((View.whole main_v69_1).slice (win1_4.rect t)).set ↔ _
  rw [View.set_slice_whole, Rect.mem_set_unit]
  exact Iff.rfl

theorem flag_mem_blk (t : Fin cfg1.N) (i : S16384x1.Idx) :
    i ∈ ((cfg1.win 5).blk t).view.set ↔ ∀ a : Fin 2, win1_5.index t a * S2048x1.size a ≤ (i a).val ∧ (i a).val < win1_5.index t a * S2048x1.size a + S2048x1.size a := by
  show i ∈ ((View.whole main_v69_2).slice (win1_5.rect t)).set ↔ _
  rw [View.set_slice_whole, Rect.mem_set_unit]
  exact Iff.rfl

/-- Every index of the first output is in the block of the point its row names: row r is in rows 2048·(r / 2048) …. -/
theorem pos_cover (i : S16384x256.Idx) :
    ∃ t : Fin cfg1.N, (cfg1.win 3).flush t = true ∧ i ∈ ((cfg1.win 3).blk t).view.set := by
  have hi0 : (i 0).val < 16384 := (i 0).isLt
  have hi1 : (i 1).val < 256 := (i 1).isLt
  refine ⟨pointOf (i 0).val hi0, flush1_3 _, ?_⟩
  obtain ⟨-, -, -, -, -, -, e0, e1, -⟩ := block_index (pointOf (i 0).val hi0)
  rw [pos_mem_blk]
  intro a
  match a with
  | ⟨0, _⟩ =>
    show win1_3.index (pointOf (i 0).val hi0) (0 : Fin 2) * 2048 ≤ (i 0).val
      ∧ (i 0).val < win1_3.index (pointOf (i 0).val hi0) (0 : Fin 2) * 2048 + 2048
    rw [e0]
    show (i 0).val / 2048 * 2048 ≤ (i 0).val ∧ (i 0).val < (i 0).val / 2048 * 2048 + 2048
    omega
  | ⟨1, _⟩ =>
    show win1_3.index (pointOf (i 0).val hi0) (1 : Fin 2) * 256 ≤ (i 1).val
      ∧ (i 1).val < win1_3.index (pointOf (i 0).val hi0) (1 : Fin 2) * 256 + 256
    rw [e1]
    omega

theorem neg_cover (i : S16384x256.Idx) :
    ∃ t : Fin cfg1.N, (cfg1.win 4).flush t = true ∧ i ∈ ((cfg1.win 4).blk t).view.set := by
  have hi0 : (i 0).val < 16384 := (i 0).isLt
  have hi1 : (i 1).val < 256 := (i 1).isLt
  refine ⟨pointOf (i 0).val hi0, flush1_4 _, ?_⟩
  obtain ⟨-, -, -, -, -, -, -, -, e0, e1, -⟩ := block_index (pointOf (i 0).val hi0)
  rw [neg_mem_blk]
  intro a
  match a with
  | ⟨0, _⟩ =>
    show win1_4.index (pointOf (i 0).val hi0) (0 : Fin 2) * 2048 ≤ (i 0).val
      ∧ (i 0).val < win1_4.index (pointOf (i 0).val hi0) (0 : Fin 2) * 2048 + 2048
    rw [e0]
    show (i 0).val / 2048 * 2048 ≤ (i 0).val ∧ (i 0).val < (i 0).val / 2048 * 2048 + 2048
    omega
  | ⟨1, _⟩ =>
    show win1_4.index (pointOf (i 0).val hi0) (1 : Fin 2) * 256 ≤ (i 1).val
      ∧ (i 1).val < win1_4.index (pointOf (i 0).val hi0) (1 : Fin 2) * 256 + 256
    rw [e1]
    omega

theorem flag_cover (i : S16384x1.Idx) :
    ∃ t : Fin cfg1.N, (cfg1.win 5).flush t = true ∧ i ∈ ((cfg1.win 5).blk t).view.set := by
  have hi0 : (i 0).val < 16384 := (i 0).isLt
  have hi1 : (i 1).val < 1 := (i 1).isLt
  refine ⟨pointOf (i 0).val hi0, flush1_5 _, ?_⟩
  obtain ⟨-, -, -, -, -, -, -, -, -, -, e0, e1⟩ := block_index (pointOf (i 0).val hi0)
  rw [flag_mem_blk]
  intro a
  match a with
  | ⟨0, _⟩ =>
    show win1_5.index (pointOf (i 0).val hi0) (0 : Fin 2) * 2048 ≤ (i 0).val
      ∧ (i 0).val < win1_5.index (pointOf (i 0).val hi0) (0 : Fin 2) * 2048 + 2048
    rw [e0]
    show (i 0).val / 2048 * 2048 ≤ (i 0).val ∧ (i 0).val < (i 0).val / 2048 * 2048 + 2048
    omega
  | ⟨1, _⟩ =>
    show win1_5.index (pointOf (i 0).val hi0) (1 : Fin 2) * 1 ≤ (i 1).val
      ∧ (i 1).val < win1_5.index (pointOf (i 0).val hi0) (1 : Fin 2) * 1 + 1
    rw [e1]
    omega

/-! ## The three arrays after the region -/

/-- The first output array after the region: the positive attribute array, row-normalised. -/
theorem pos_final (c : Dev nD) :
    (dat1 (F := Ideal) V c).arrAt 3 cfg1.N = unitRows (n := 16384) (V c main_v34) := by
  exact (dat1 (F := Ideal) V c).arrAt_eq_of_cover 3 _ (fun t _ => pos_flushed V c t) pos_cover

/-- The second: the negative attribute array, row-normalised. -/
theorem neg_final (c : Dev nD) :
    (dat1 (F := Ideal) V c).arrAt 4 cfg1.N = unitRows (n := 16384) (V c main_v68) := by
  exact (dat1 (F := Ideal) V c).arrAt_eq_of_cover 4 _ (fun t _ => neg_flushed V c t) neg_cover

/-- The flag array after the region is the flag function of the three arrays the region finds. -/
theorem flag_array_final (c : Dev nD) : (dat1 (F := Ideal) V c).arrAt 5 cfg1.N = flagArray V c :=
  (dat1 (F := Ideal) V c).arrAt_eq_of_cover 5 _ (fun t _ => flag_flushed V c t) flag_cover

/-- The flag array after the region: row r holds the triplet flag of row r of the embedding against the two
    normalised attribute arrays. -/
theorem flag_final (c : Dev nD) (r : Fin 16384) :
    (dat1 (F := Ideal) V c).arrAt 5 cfg1.N (ix2 r (0 : Fin 1))
      = rowFlag (n := 16384) eps margin (V c main_v0) (unitRows (n := 16384) (V c main_v34)) (unitRows (n := 16384) (V c main_v68)) r := by
  exact congrFun (flag_array_final V c) (ix2 r (0 : Fin 1))

end Cert.KernelIdeal.Triplet

end
-- ==== Proof.lean ====
/-
  The certificate: the kernel (two Pallas regions around plain host code) against its jnp reference, over the extended reals.

  Both programs compute, from the image features and the two attribute arrays: the image embedding (a linear layer, each
  row divided by its Euclidean norm), the two attribute embeddings (the attribute network, then the same row normalisation),
  and the count of rows whose shifted distance to the negative exceeds that to the positive by more than the margin.
  The kernel does the linear layer and its normalisation in one region, blocked over rows; the attribute network on the
  host, with the reference's own operations; the two normalisations, the distances and the flags in a second region,
  blocked over rows; the count on the host. Every kernel operation works row by row, so each region's output array is one
  whole-array function of the arrays it finds (Proof/Region0.lean, Proof/Region1.lean); the reference's stages are those
  same functions (Proof/RefStages.lean), its |d|^2 and s^(1/2) being d·d and √s on the extended reals (Proof/RowMath.lean);
  the flags' total wrapping sum does not depend on whether they sit in a [16384, 1] or a [16384] array. No law used
  needs the inputs finite, so the precondition is never opened. The idealisation rewrote nothing, so `preserves` is trivial.
-/
import proofs.«135443_j3925600108806_1_alg».proof.Defs
import proofs.«135443_j3925600108806_1_alg».proof.Proof.Gen.Kernel.Frame
import proofs.«135443_j3925600108806_1_alg».proof.Proof.Gen.KernelIdeal.Frame
import proofs.«135443_j3925600108806_1_alg».proof.Proof.Gen.ReferenceIdeal.Run
import proofs.«135443_j3925600108806_1_alg».proof.Proof.Gen.ReferenceIdeal.Read
import proofs.«135443_j3925600108806_1_alg».proof.Proof.Gen.Pre_finite_inputs
import proofs.«135443_j3925600108806_1_alg».proof.Proof.RowMath
import proofs.«135443_j3925600108806_1_alg».proof.Proof.RefStages
import proofs.«135443_j3925600108806_1_alg».proof.Proof.KRun
import proofs.«135443_j3925600108806_1_alg».proof.Proof.KBoundary
import proofs.«135443_j3925600108806_1_alg».proof.Proof.HostChain
import proofs.«135443_j3925600108806_1_alg».proof.Proof.Region0
import proofs.«135443_j3925600108806_1_alg».proof.Proof.Region1
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx
open Cert.RowMath Cert.ReferenceIdeal.Stages

/-! ## The kernel's four results, as the reference's stage functions of the kernel's own arguments -/

section KernelValues

open Cert.KernelIdeal Cert.KernelIdeal.Gen

variable (m : (ℓ : Loc Cert.KernelIdeal.nD Cert.KernelIdeal.τ Cert.KernelIdeal.sig) → Buf (Elt Ideal) ℓ)
  (ρ : Dev Cert.KernelIdeal.nD → PrngReg)

/-- The embedding the kernel returns: the embedding region's array is the row-normalised linear layer, which is the
    reference's normalised embedding stage. -/
theorem kernel_emb (c : Dev Cert.KernelIdeal.nD) :
    (dat0 (F := Ideal) (V0 m ρ) c).arrAt 3 cfg0.N = Cert.ReferenceIdeal.Read.val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  rw [Cert.KernelIdeal.Embed.emb_final (V0 m ρ) c, v74_eq, rnorm_eq_unitRows, v3_eq_linear]

/-- The positive attribute embedding the kernel returns is the reference's. -/
theorem kernel_pos (c : Dev Cert.KernelIdeal.nD) :
    (dat1 (F := Ideal) (V6 m ρ) c).arrAt 3 cfg1.N = Cert.ReferenceIdeal.Read.val_main_v77 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  rw [Cert.KernelIdeal.Triplet.pos_final (V6 m ρ) c, Cert.KernelIdeal.HostChain.entry1_pos m ρ c, v77_eq, rnorm_eq_unitRows]

/-- The negative attribute embedding likewise. -/
theorem kernel_neg (c : Dev Cert.KernelIdeal.nD) :
    (dat1 (F := Ideal) (V6 m ρ) c).arrAt 4 cfg1.N = Cert.ReferenceIdeal.Read.val_main_v80 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  rw [Cert.KernelIdeal.Triplet.neg_final (V6 m ρ) c, Cert.KernelIdeal.HostChain.entry1_neg m ρ c, v80_eq, rnorm_eq_unitRows]

/-- Row r of the kernel's flag array is row r of the reference's flag stage: both are the row flag of the same three
    normalised arrays. -/
theorem kernel_flag (c : Dev Cert.KernelIdeal.nD) (r : Fin 16384) :
    (dat1 (F := Ideal) (V6 m ρ) c).arrAt 5 cfg1.N (ix2 r (0 : Fin 1)) = Cert.ReferenceIdeal.Read.val_main_v102 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (ix1 r) := by
  rw [Cert.KernelIdeal.Triplet.flag_final (V6 m ρ) c r, v102_eq, flags_apply,
    Cert.KernelIdeal.Boundary.entry1_emb m ρ c, kernel_emb m ρ c,
    Cert.KernelIdeal.HostChain.entry1_pos m ρ c, Cert.KernelIdeal.HostChain.entry1_neg m ρ c,
    v77_eq, v80_eq, rnorm_eq_unitRows, rnorm_eq_unitRows]

/-- The count the kernel returns is the reference's: a total wrapping sum of the same 16384 flags. -/
theorem kernel_count (c : Dev Cert.KernelIdeal.nD) :
    W8 m ρ c (Proc.devRef .tc main_v71) = Cert.ReferenceIdeal.Read.val_main_v104 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  rw [Cert.KernelIdeal.Boundary.exit_count m ρ c]
  unfold Cert.ReferenceIdeal.Read.val_main_v104 Cert.ReferenceIdeal.Read.val_main_v103
  funext i
  unfold shapeCast
  exact reduce_addi_col_eq_row _ _ (kernel_flag m ρ c) _ _ _ _ _ _ rfl
    (fun j j' => funext fun a => a.elim0) (fun j j' => funext fun a => a.elim0) _ _

end KernelValues

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- Both runs end with the four results at the reference's stage functions of the (agreeing) arguments. -/
theorem algebraic : Cert.algebraic_KernelIdeal_ReferenceIdeal := by
  intro m ρ m' ρ' _ hagree
  refine ⟨fun c => Cert.ReferenceIdeal.Read.val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), fun c => Cert.ReferenceIdeal.Read.val_main_v77 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), fun c => Cert.ReferenceIdeal.Read.val_main_v80 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), fun c => Cert.ReferenceIdeal.Read.val_main_v104 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ?_) (Cert.KernelIdeal.KRun.run_results (F := Ideal) m ρ)
    obtain ⟨h0, h1, h2, h3, hargs⟩ := h c
    exact ⟨h0.trans ((Cert.KernelIdeal.Boundary.exit_emb m ρ c).trans (kernel_emb m ρ c)),
      h1.trans ((Cert.KernelIdeal.Boundary.exit_pos m ρ c).trans (kernel_pos m ρ c)),
      h2.trans ((Cert.KernelIdeal.Boundary.exit_neg m ρ c).trans (kernel_neg m ρ c)),
      h3.trans (kernel_count m ρ c), hargs⟩
  · refine (θ_run Cert.ReferenceIdeal.defs _ _).mono (fun r h c => ?_) (Cert.ReferenceIdeal.Value.run (F := Ideal) m' ρ')
    obtain ⟨h0, h1, h2, h3, hargs⟩ := h c
    obtain ⟨e0, e1, e2, e3, e4, e5, e6, e7, e8, e9, e10⟩ := hagree c
    refine ⟨h0.trans ?_, h1.trans ?_, h2.trans ?_, h3.trans ?_, hargs⟩
    · rw [e0, e3, e4]; exact Cert.ReferenceIdeal.Read.val_main_v74_eq _ _ _
    · rw [Cert.ReferenceIdeal.Read.val_main_v77_eq, e1, e5, e6, e7, e8, e9, e10]
    · rw [Cert.ReferenceIdeal.Read.val_main_v80_eq, e2, e5, e6, e7, e8, e9, e10]
    · rw [Cert.ReferenceIdeal.Read.val_main_v104_eq, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
